-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S2016x6144 : S_.BroadcastsInDim S2016x6144 (![] : Fin 0 → Fin S2016x6144.rank)
  reducesTo_S2016x6144_S_d0_1 : S2016x6144.ReducesTo [0, 1] S_
  bcast_S_S2016 : S_.BroadcastsInDim S2016 (![] : Fin 0 → Fin S2016.rank)
  reducesTo_S2016_S_d0 : S2016.ReducesTo [0] S_

variable [Facts]

def fn_part4 {F : FTy → Type} [FloatOps F] (main_arg14 : FVec F S6144x6144 .f32) (main_arg15 : FVec F S2016x6144 .f32) (main_v63 : IVec S_ 1) (main_v67 : IVec S_ 1) : IVec S_ 1 :=
  let main_v68 : IVec S_ 1 := andi main_v63 main_v67
  let main_v69 : FVec F S6144x6144 .f32 := Host.absf main_arg14
  let main_cst_26 : FVec F S_ .f32 := constant S_ .f32 0x7F800000#32
  let main_v70 : FVec F S6144x6144 .f32 := broadcastInDim S6144x6144 ![] bcast_S_S6144x6144 main_cst_26
  let main_v71 : IVec S6144x6144 1 := cmpf .olt main_v69 main_v70
  let main_c_27 : IVec S_ 1 := constantI S_ 1 1#1
  let main_v72 : IVec S_ 1 := (fun x v => Host.reduce IntOp.andi x v reducesTo_S6144x6144_S_d0_1 h_S_) main_v71 main_c_27
  let main_v73 : IVec S_ 1 := andi main_v68 main_v72
  let main_v74 : FVec F S2016x6144 .f32 := Host.absf main_arg15
  let main_cst_28 : FVec F S_ .f32 := constant S_ .f32 0x7F800000#32
  let main_v75 : FVec F S2016x6144 .f32 := broadcastInDim S2016x6144 ![] bcast_S_S2016x6144 main_cst_28
  let main_v76 : IVec S2016x6144 1 := cmpf .olt main_v74 main_v75
  let main_c_29 : IVec S_ 1 := constantI S_ 1 1#1
  let main_v77 : IVec S_ 1 := (fun x v => Host.reduce IntOp.andi x v reducesTo_S2016x6144_S_d0_1 h_S_) main_v76 main_c_29
  let main_v78 : IVec S_ 1 := andi main_v73 main_v77
  main_v78

def fn_part3 {F : FTy → Type} [FloatOps F] (main_arg11 : FVec F S6144x2048 .f32) (main_arg12 : FVec F S6144x6144 .f32) (main_arg13 : FVec F S6144x6144 .f32) (main_arg14 : FVec F S6144x6144 .f32) (main_arg15 : FVec F S2016x6144 .f32) (main_v48 : IVec S_ 1) (main_v49 : FVec F S2016 .f32) (main_v50 : FVec F S2016 .f32) : IVec S_ 1 :=
  let main_v51 : IVec S2016 1 := cmpf .olt main_v49 main_v50
  let main_c_19 : IVec S_ 1 := constantI S_ 1 1#1
  let main_v52 : IVec S_ 1 := (fun x v => Host.reduce IntOp.andi x v reducesTo_S2016_S_d0 h_S_) main_v51 main_c_19
  let main_v53 : IVec S_ 1 := andi main_v48 main_v52
  let main_v54 : FVec F S6144x2048 .f32 := Host.absf main_arg11
  let main_cst_20 : FVec F S_ .f32 := constant S_ .f32 0x7F800000#32
  let main_v55 : FVec F S6144x2048 .f32 := broadcastInDim S6144x2048 ![] bcast_S_S6144x2048 main_cst_20
  let main_v56 : IVec S6144x2048 1 := cmpf .olt main_v54 main_v55
  let main_c_21 : IVec S_ 1 := constantI S_ 1 1#1
  let main_v57 : IVec S_ 1 := (fun x v => Host.reduce IntOp.andi x v reducesTo_S6144x2048_S_d0_1 h_S_) main_v56 main_c_21
  let main_v58 : IVec S_ 1 := andi main_v53 main_v57
  let main_v59 : FVec F S6144x6144 .f32 := Host.absf main_arg12
  let main_cst_22 : FVec F S_ .f32 := constant S_ .f32 0x7F800000#32
  let main_v60 : FVec F S6144x6144 .f32 := broadcastInDim S6144x6144 ![] bcast_S_S6144x6144 main_cst_22
  let main_v61 : IVec S6144x6144 1 := cmpf .olt main_v59 main_v60
  let main_c_23 : IVec S_ 1 := constantI S_ 1 1#1
  let main_v62 : IVec S_ 1 := (fun x v => Host.reduce IntOp.andi x v reducesTo_S6144x6144_S_d0_1 h_S_) main_v61 main_c_23
  let main_v63 : IVec S_ 1 := andi main_v58 main_v62
  let main_v64 : FVec F S6144x6144 .f32 := Host.absf main_arg13
  let main_cst_24 : FVec F S_ .f32 := constant S_ .f32 0x7F800000#32
  let main_v65 : FVec F S6144x6144 .f32 := broadcastInDim S6144x6144 ![] bcast_S_S6144x6144 main_cst_24
  let main_v66 : IVec S6144x6144 1 := cmpf .olt main_v64 main_v65
  let main_c_25 : IVec S_ 1 := constantI S_ 1 1#1
  let main_v67 : IVec S_ 1 := (fun x v => Host.reduce IntOp.andi x v reducesTo_S6144x6144_S_d0_1 h_S_) main_v66 main_c_25
  fn_part4 (F := F) main_arg14 main_arg15 main_v63 main_v67

def fn_part2 {F : FTy → Type} [FloatOps F] (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) (main_v33 : IVec S_ 1) : IVec S_ 1 :=
  let main_v34 : FVec F S6144x6144 .f32 := Host.absf main_arg7
  let main_cst_12 : FVec F S_ .f32 := constant S_ .f32 0x7F800000#32
  let main_v35 : FVec F S6144x6144 .f32 := broadcastInDim S6144x6144 ![] bcast_S_S6144x6144 main_cst_12
  let main_v36 : IVec S6144x6144 1 := cmpf .olt main_v34 main_v35
  let main_c_13 : IVec S_ 1 := constantI S_ 1 1#1
  let main_v37 : IVec S_ 1 := (fun x v => Host.reduce IntOp.andi x v reducesTo_S6144x6144_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S2016x6144 .f32 := Host.absf main_arg9
  let main_cst_16 : FVec F S_ .f32 := constant S_ .f32 0x7F800000#32
  let main_v45 : FVec F S2016x6144 .f32 := broadcastInDim S2016x6144 ![] bcast_S_S2016x6144 main_cst_16
  let main_v46 : IVec S2016x6144 1 := cmpf .olt main_v44 main_v45
  let main_c_17 : IVec S_ 1 := constantI S_ 1 1#1
  let main_v47 : IVec S_ 1 := (fun x v => Host.reduce IntOp.andi x v reducesTo_S2016x6144_S_d0_1 h_S_) main_v46 main_c_17
  let main_v48 : IVec S_ 1 := andi main_v43 main_v47
  let main_v49 : FVec F S2016 .f32 := Host.absf main_arg10
  let main_cst_18 : FVec F S_ .f32 := constant S_ .f32 0x7F800000#32
  let main_v50 : FVec F S2016 .f32 := broadcastInDim S2016 ![] bcast_S_S2016 main_cst_18
  fn_part3 (F := F) main_arg11 main_arg12 main_arg13 main_arg14 main_arg15 main_v48 main_v49 main_v50

def fn_part1 {F : FTy → Type} [FloatOps F] (main_arg4 : FVec F S6144 .f32) (main_arg5 : FVec F S6144x6144 .f32) (main_arg6 : FVec F S6144 .f32) (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) (main_v13 : IVec S_ 1) (main_v16 : IVec S6144x6144 1) : IVec S_ 1 :=
  let main_c_5 : IVec S_ 1 := constantI S_ 1 1#1
  let main_v17 : IVec S_ 1 := (fun x v => Host.reduce IntOp.andi x v reducesTo_S6144x6144_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144x6144 .f32 := Host.absf main_arg5
  let main_cst_8 : FVec F S_ .f32 := constant S_ .f32 0x7F800000#32
  let main_v25 : FVec F S6144x6144 .f32 := broadcastInDim S6144x6144 ![] bcast_S_S6144x6144 main_cst_8
  let main_v26 : IVec S6144x6144 1 := cmpf .olt main_v24 main_v25
  let main_c_9 : IVec S_ 1 := constantI S_ 1 1#1
  let main_v27 : IVec S_ 1 := (fun x v => Host.reduce IntOp.andi x v reducesTo_S6144x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x2048 .f32) (main_arg1 : FVec F S6144x2048 .f32) (main_arg2 : FVec F S6144 .f32) (main_arg3 : FVec F S6144x6144 .f32) (main_arg4 : FVec F S6144 .f32) (main_arg5 : FVec F S6144x6144 .f32) (main_arg6 : FVec F S6144 .f32) (main_arg7 : FVec F S6144x6144 .f32) (main_arg8 : FVec F S6144 .f32) (main_arg9 : FVec F S2016x6144 .f32) (main_arg10 : FVec F S2016 .f32) (main_arg11 : FVec F S6144x2048 .f32) (main_arg12 : FVec F S6144x6144 .f32) (main_arg13 : FVec F S6144x6144 .f32) (main_arg14 : FVec F S6144x6144 .f32) (main_arg15 : FVec F S2016x6144 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S6144x6144 .f32 := Host.absf main_arg3
  let main_cst_4 : FVec F S_ .f32 := constant S_ .f32 0x7F800000#32
  let main_v15 : FVec F S6144x6144 .f32 := broadcastInDim S6144x6144 ![] bcast_S_S6144x6144 main_cst_4
  let main_v16 : IVec S6144x6144 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S1x6144 : Shape := ⟨2, ![1, 6144]⟩
abbrev S4096x6144 : Shape := ⟨2, ![4096, 6144]⟩
abbrev S256x2048 : Shape := ⟨2, ![256, 2048]⟩
abbrev S128x2048 : Shape := ⟨2, ![128, 2048]⟩
abbrev S1x128 : Shape := ⟨2, ![1, 128]⟩
abbrev S256x128 : Shape := ⟨2, ![256, 128]⟩
abbrev S256x6144 : Shape := ⟨2, ![256, 6144]⟩
abbrev S128x6144 : Shape := ⟨2, ![128, 6144]⟩
abbrev S_ : Shape := ⟨0, ![]⟩
abbrev S2048x6144 : Shape := ⟨2, ![2048, 6144]⟩
abbrev S2048 : Shape := ⟨1, ![2048]⟩
abbrev S1x2048 : Shape := ⟨2, ![1, 2048]⟩
abbrev S4096x2016 : Shape := ⟨2, ![4096, 2016]⟩

abbrev nBuf : Space → Nat
  | .hbm => 36
  | .vmem => 50
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S2016x6144, .f32⟩
  | .hbm, ⟨10, _⟩ => ⟨S2016, .f32⟩
  | .hbm, ⟨11, _⟩ => ⟨S6144x2048, .f32⟩
  | .hbm, ⟨12, _⟩ => ⟨S6144x6144, .f32⟩
  | .hbm, ⟨13, _⟩ => ⟨S6144x6144, .f32⟩
  | .hbm, ⟨14, _⟩ => ⟨S6144x6144, .f32⟩
  | .hbm, ⟨15, _⟩ => ⟨S2016x6144, .f32⟩
  | .hbm, ⟨16, _⟩ => ⟨S1x6144, .f32⟩
  | .hbm, ⟨17, _⟩ => ⟨S4096x6144, .f32⟩
  | .hbm, ⟨18, _⟩ => ⟨S1x6144, .f32⟩
  | .hbm, ⟨19, _⟩ => ⟨S4096x6144, .f32⟩
  | .hbm, ⟨20, _⟩ => ⟨S1x6144, .f32⟩
  | .hbm, ⟨21, _⟩ => ⟨S4096x6144, .f32⟩
  | .hbm, ⟨22, _⟩ => ⟨S1x6144, .f32⟩
  | .hbm, ⟨23, _⟩ => ⟨S4096x6144, .f32⟩
  | .hbm, ⟨24, _⟩ => ⟨S_, .i32⟩
  | .hbm, ⟨25, _⟩ => ⟨S_, .f32⟩
  | .hbm, ⟨26, _⟩ => ⟨S2048x6144, .f32⟩
  | .hbm, ⟨27, _⟩ => ⟨S_, .i32⟩
  | .hbm, ⟨28, _⟩ => ⟨S_, .f32⟩
  | .hbm, ⟨29, _⟩ => ⟨S2048x6144, .f32⟩
  | .hbm, ⟨30, _⟩ => ⟨S_, .i32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2016, .f32⟩
  | .local _ .vmem, ⟨0, _⟩ => ⟨S256x2048, .f32⟩
  | .local _ .vmem, ⟨1, _⟩ => ⟨S256x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x6144, .f32⟩
  | .local _ .vmem, ⟨11, _⟩ => ⟨S256x6144, .f32⟩
  | .local _ .vmem, ⟨12, _⟩ => ⟨S128x6144, .f32⟩
  | .local _ .vmem, ⟨13, _⟩ => ⟨S128x6144, .f32⟩
  | .local _ .vmem, ⟨14, _⟩ => ⟨S128x6144, .f32⟩
  | .local _ .vmem, ⟨15, _⟩ => ⟨S128x6144, .f32⟩
  | .local _ .vmem, ⟨16, _⟩ => ⟨S1x128, .f32⟩
  | .local _ .vmem, ⟨17, _⟩ => ⟨S1x128, .f32⟩
  | .local _ .vmem, ⟨18, _⟩ => ⟨S256x128, .f32⟩
  | .local _ .vmem, ⟨19, _⟩ => ⟨S256x128, .f32⟩
  | .local _ .vmem, ⟨20, _⟩ => ⟨S256x6144, .f32⟩
  | .local _ .vmem, ⟨21, _⟩ => ⟨S256x6144, .f32⟩
  | .local _ .vmem, ⟨22, _⟩ => ⟨S128x6144, .f32⟩
  | .local _ .vmem, ⟨23, _⟩ => ⟨S128x6144, .f32⟩
  | .local _ .vmem, ⟨24, _⟩ => ⟨S128x6144, .f32⟩
  | .local _ .vmem, ⟨25, _⟩ => ⟨S128x6144, .f32⟩
  | .local _ .vmem, ⟨26, _⟩ => ⟨S1x128, .f32⟩
  | .local _ .vmem, ⟨27, _⟩ => ⟨S1x128, .f32⟩
  | .local _ .vmem, ⟨28, _⟩ => ⟨S256x128, .f32⟩
  | .local _ .vmem, ⟨29, _⟩ => ⟨S256x128, .f32⟩
  | .local _ .vmem, ⟨30, _⟩ => ⟨S256x6144, .f32⟩
  | .local _ .vmem, ⟨31, _⟩ => ⟨S256x6144, .f32⟩
  | .local _ .vmem, ⟨32, _⟩ => ⟨S128x6144, .f32⟩
  | .local _ .vmem, ⟨33, _⟩ => ⟨S128x6144, .f32⟩
  | .local _ .vmem, ⟨34, _⟩ => ⟨S128x6144, .f32⟩
  | .local _ .vmem, ⟨35, _⟩ => ⟨S128x6144, .f32⟩
  | .local _ .vmem, ⟨36, _⟩ => ⟨S1x128, .f32⟩
  | .local _ .vmem, ⟨37, _⟩ => ⟨S1x128, .f32⟩
  | .local _ .vmem, ⟨38, _⟩ => ⟨S256x128, .f32⟩
  | .local _ .vmem, ⟨39, _⟩ => ⟨S256x128, .f32⟩
  | .local _ .vmem, ⟨40, _⟩ => ⟨S256x6144, .f32⟩
  | .local _ .vmem, ⟨41, _⟩ => ⟨S256x6144, .f32⟩
  | .local _ .vmem, ⟨42, _⟩ => ⟨S128x6144, .f32⟩
  | .local _ .vmem, ⟨43, _⟩ => ⟨S128x6144, .f32⟩
  | .local _ .vmem, ⟨44, _⟩ => ⟨S128x6144, .f32⟩
  | .local _ .vmem, ⟨45, _⟩ => ⟨S128x6144, .f32⟩
  | .local _ .vmem, ⟨46, _⟩ => ⟨S1x128, .f32⟩
  | .local _ .vmem, ⟨47, _⟩ => ⟨S1x128, .f32⟩
  | .local _ .vmem, ⟨48, _⟩ => ⟨S256x128, .f32⟩
  | .local _ .vmem, ⟨49, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_v0 : Ref sig .tc := ⟨.hbm, 25, rfl⟩
abbrev main_v8 : Ref sig .tc := ⟨.hbm, 26, rfl⟩
abbrev main_c_0 : Ref sig .tc := ⟨.hbm, 27, rfl⟩
abbrev main_call1_v0 : Ref sig .tc := ⟨.hbm, 28, rfl⟩
abbrev main_v9 : Ref sig .tc := ⟨.hbm, 29, rfl⟩
abbrev main_c_1 : Ref sig .tc := ⟨.hbm, 30, rfl⟩
abbrev main_call2_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49

abbrev nD : Nat := 1
abbrev τ : Topo := Topo.v7x

variable {F : FTy → Type} [FloatOps F]

abbrev grid0 : Pipeline.Grid := ⟨2, ![48, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![48, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x6144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![48, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x6144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S128x6144 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S128x6144 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![48, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x6144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S128x6144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S128x6144 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![16, 16], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S256x6144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S128x6144 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S128x6144 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

class Facts₀ : Prop where
  shapeCasts_S6144_S1x6144 : S6144.ShapeCasts S1x6144
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S128x6144_S128x6144_0_0 : ∀ a, (![0, 0] : Fin 2 → Nat) a + S128x6144.size a ≤ S128x6144.size a
  h_S128x6144 : 0 < S128x6144.numel
  pads_S2016x6144_S2048x6144_0320_000 : S2016x6144.Pads (![0, 0] : Fin 2 → Nat) ![32, 0] ![0, 0] S2048x6144
  h_S_ : 0 < S_.numel
  pads_S2016_S2048_0320 : S2016.Pads (![0] : Fin 1 → Nat) ![32] ![0] S2048
  shapeCasts_S2048_S1x2048 : S2048.ShapeCasts S1x2048
  shapeCasts_S128x6144_S128x6144 : S128x6144.ShapeCasts S128x6144
  slices_S4096x2048_S4096x2016_0_0 : S4096x2048.Slices ![0, 0] S4096x2016
  dot_S256x2048_S128x2048_S256x128_1_1_0_0_n_n_wf : DotDims.WF S256x2048 S128x2048 S256x128 [1] [1] [0] [0] [] []
  dot_S256x6144_S128x6144_S256x128_1_1_0_0_n_n_wf : DotDims.WF S256x6144 S128x6144 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S6144x2048.size a
  hwx0_1 : ∀ i : grid0.Coords, EltTy.bits .f32 = 32 ∨ (Rect.block (s := S6144x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S6144x2048.size a
  hwx0_2 : ∀ i : grid0.Coords, EltTy.bits .f32 = 32 ∨ (Rect.block (s := S6144x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x6144.size a
  hwx0_3 : ∀ i : grid0.Coords, EltTy.bits .f32 = 32 ∨ (Rect.block (s := S1x6144) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S4096x6144.size a
  hwx0_4 : ∀ i : grid0.Coords, EltTy.bits .f32 = 32 ∨ (Rect.block (s := S4096x6144) S256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x6144.size a ≤ S4096x6144.size a
  hwx1_0 : ∀ i : grid1.Coords, EltTy.bits .f32 = 32 ∨ (Rect.block (s := S4096x6144) S256x6144.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x6144.size a ≤ S6144x6144.size a
  hwx1_1 : ∀ i : grid1.Coords, EltTy.bits .f32 = 32 ∨ (Rect.block (s := S6144x6144) S128x6144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x6144.size a ≤ S6144x6144.size a
  hwx1_2 : ∀ i : grid1.Coords, EltTy.bits .f32 = 32 ∨ (Rect.block (s := S6144x6144) S128x6144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x6144.size a
  hwx1_3 : ∀ i : grid1.Coords, EltTy.bits .f32 = 32 ∨ (Rect.block (s := S1x6144) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S4096x6144.size a
  hwx1_4 : ∀ i : grid1.Coords, EltTy.bits .f32 = 32 ∨ (Rect.block (s := S4096x6144) S256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x6144.size a ≤ S4096x6144.size a
  hwx2_0 : ∀ i : grid2.Coords, EltTy.bits .f32 = 32 ∨ (Rect.block (s := S4096x6144) S256x6144.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x6144.size a ≤ S6144x6144.size a
  hwx2_1 : ∀ i : grid2.Coords, EltTy.bits .f32 = 32 ∨ (Rect.block (s := S6144x6144) S128x6144.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x6144.size a ≤ S6144x6144.size a
  hwx2_2 : ∀ i : grid2.Coords, EltTy.bits .f32 = 32 ∨ (Rect.block (s := S6144x6144) S128x6144.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x6144.size a
  hwx2_3 : ∀ i : grid2.Coords, EltTy.bits .f32 = 32 ∨ (Rect.block (s := S1x6144) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S4096x6144.size a
  hwx2_4 : ∀ i : grid2.Coords, EltTy.bits .f32 = 32 ∨ (Rect.block (s := S4096x6144) S256x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x6144.size a ≤ S4096x6144.size a
  hwx3_0 : ∀ i : grid3.Coords, EltTy.bits .f32 = 32 ∨ (Rect.block (s := S4096x6144) S256x6144.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x6144.size a ≤ S6144x6144.size a
  hwx3_1 : ∀ i : grid3.Coords, EltTy.bits .f32 = 32 ∨ (Rect.block (s := S6144x6144) S128x6144.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x6144.size a ≤ S6144x6144.size a
  hwx3_2 : ∀ i : grid3.Coords, EltTy.bits .f32 = 32 ∨ (Rect.block (s := S6144x6144) S128x6144.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x6144.size a
  hwx3_3 : ∀ i : grid3.Coords, EltTy.bits .f32 = 32 ∨ (Rect.block (s := S1x6144) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S4096x6144.size a
  hwx3_4 : ∀ i : grid3.Coords, EltTy.bits .f32 = 32 ∨ (Rect.block (s := S4096x6144) S256x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x6144.size a ≤ S4096x6144.size a
  hwx4_0 : ∀ i : grid4.Coords, EltTy.bits .f32 = 32 ∨ (Rect.block (s := S4096x6144) S256x6144.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x6144.size a ≤ S2048x6144.size a
  hwx4_1 : ∀ i : grid4.Coords, EltTy.bits .f32 = 32 ∨ (Rect.block (s := S2048x6144) S128x6144.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S128x6144.size a ≤ S2048x6144.size a
  hwx4_2 : ∀ i : grid4.Coords, EltTy.bits .f32 = 32 ∨ (Rect.block (s := S2048x6144) S128x6144.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x2048.size a
  hwx4_3 : ∀ i : grid4.Coords, EltTy.bits .f32 = 32 ∨ (Rect.block (s := S1x2048) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x128.size a ≤ S4096x2048.size a
  hwx4_4 : ∀ i : grid4.Coords, EltTy.bits .f32 = 32 ∨ (Rect.block (s := S4096x2048) S256x128.size (cc4_transform_4 i) (hinb4_4 i)).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf
def dot_S256x6144_S128x6144_S256x128_1_1_0_0_n_n : DotDims S256x6144 S128x6144 S256x128 where
  lhsContracting := [1]
  rhsContracting := [1]
  lhsNonContracting := [0]
  rhsNonContracting := [0]
  lhsBatch := []
  rhsBatch := []
  wf := dot_S256x6144_S128x6144_S256x128_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S256x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x6144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x6144.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v3) S256x6144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x6144.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x6144.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v5) S256x6144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x6144.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x6144.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7) S256x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v7) S256x6144.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S128x6144.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9) S128x6144.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v12) S256x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S4096x2048 : Shape := ⟨2, ![4096, 2048]⟩
abbrev S6144x2048 : Shape := ⟨2, ![6144, 2048]⟩
abbrev S6144 : Shape := ⟨1, ![6144]⟩
abbrev S6144x6144 : Shape := ⟨2, ![6144, 6144]⟩
abbrev S2016x6144 : Shape := ⟨2, ![2016, 6144]⟩
abbrev S2016 : Shape := ⟨1, ![2016]⟩
abbrev S2048x6144 : Shape := ⟨2, ![2048, 6144]⟩
abbrev S4096x6144 : Shape := ⟨2, ![4096, 6144]⟩
abbrev S1x6144 : Shape := ⟨2, ![1, 6144]⟩
abbrev S_ : Shape := ⟨0, ![]⟩
abbrev S6144x2016 : Shape := ⟨2, ![6144, 2016]⟩
abbrev S4096x2016 : Shape := ⟨2, ![4096, 2016]⟩
abbrev S1x2016 : Shape := ⟨2, ![1, 2016]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S6144x6144, .f32⟩
  | .hbm, ⟨8, _⟩ => ⟨S6144, .f32⟩
  | .hbm, ⟨9, _⟩ => ⟨S2016x6144, .f32⟩
  | .hbm, ⟨10, _⟩ => ⟨S2016, .f32⟩
  | .hbm, ⟨11, _⟩ => ⟨S6144x2048, .f32⟩
  | .hbm, ⟨12, _⟩ => ⟨S6144x6144, .f32⟩
  | .hbm, ⟨13, _⟩ => ⟨S6144x6144, .f32⟩
  | .hbm, ⟨14, _⟩ => ⟨S6144x6144, .f32⟩
  | .hbm, ⟨15, _⟩ => ⟨S2016x6144, .f32⟩
  | .hbm, ⟨16, _⟩ => ⟨S6144x2048, .f32⟩
  | .hbm, ⟨17, _⟩ => ⟨S2048x6144, .f32⟩
  | .hbm, ⟨18, _⟩ => ⟨S4096x6144, .f32⟩
  | .hbm, ⟨19, _⟩ => ⟨S1x6144, .f32⟩
  | .hbm, ⟨20, _⟩ => ⟨S4096x6144, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .i1⟩
  | .hbm, ⟨25, _⟩ => ⟨S_, .f32⟩
  | .hbm, ⟨26, _⟩ => ⟨S4096x6144, .f32⟩
  | .hbm, ⟨27, _⟩ => ⟨S4096x6144, .f32⟩
  | .hbm, ⟨28, _⟩ => ⟨S4096x6144, .f32⟩
  | .hbm, ⟨29, _⟩ => ⟨S6144x6144, .f32⟩
  | .hbm, ⟨30, _⟩ => ⟨S6144x6144, .f32⟩
  | .hbm, ⟨31, _⟩ => ⟨S4096x6144, .f32⟩
  | .hbm, ⟨32, _⟩ => ⟨S1x6144, .f32⟩
  | .hbm, ⟨33, _⟩ => ⟨S4096x6144, .f32⟩
  | .hbm, ⟨34, _⟩ => ⟨S4096x6144, .f32⟩
  | .hbm, ⟨35, _⟩ => ⟨S_, .f32⟩
  | .hbm, ⟨36, _⟩ => ⟨S4096x6144, .f32⟩
  | .hbm, ⟨37, _⟩ => ⟨S4096x6144, .i1⟩
  | .hbm, ⟨38, _⟩ => ⟨S_, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S6144x6144, .f32⟩
  | .hbm, ⟨43, _⟩ => ⟨S6144x6144, .f32⟩
  | .hbm, ⟨44, _⟩ => ⟨S4096x6144, .f32⟩
  | .hbm, ⟨45, _⟩ => ⟨S1x6144, .f32⟩
  | .hbm, ⟨46, _⟩ => ⟨S4096x6144, .f32⟩
  | .hbm, ⟨47, _⟩ => ⟨S4096x6144, .f32⟩
  | .hbm, ⟨48, _⟩ => ⟨S_, .f32⟩
  | .hbm, ⟨49, _⟩ => ⟨S4096x6144, .f32⟩
  | .hbm, ⟨50, _⟩ => ⟨S4096x6144, .i1⟩
  | .hbm, ⟨51, _⟩ => ⟨S_, .f32⟩
  | .hbm, ⟨52, _⟩ => ⟨S4096x6144, .f32⟩
  | .hbm, ⟨53, _⟩ => ⟨S4096x6144, .f32⟩
  | .hbm, ⟨54, _⟩ => ⟨S4096x6144, .f32⟩
  | .hbm, ⟨55, _⟩ => ⟨S6144x6144, .f32⟩
  | .hbm, ⟨56, _⟩ => ⟨S6144x6144, .f32⟩
  | .hbm, ⟨57, _⟩ => ⟨S4096x6144, .f32⟩
  | .hbm, ⟨58, _⟩ => ⟨S1x6144, .f32⟩
  | .hbm, ⟨59, _⟩ => ⟨S4096x6144, .f32⟩
  | .hbm, ⟨60, _⟩ => ⟨S4096x6144, .f32⟩
  | .hbm, ⟨61, _⟩ => ⟨S_, .f32⟩
  | .hbm, ⟨62, _⟩ => ⟨S4096x6144, .f32⟩
  | .hbm, ⟨63, _⟩ => ⟨S4096x6144, .i1⟩
  | .hbm, ⟨64, _⟩ => ⟨S_, .f32⟩
  | .hbm, ⟨65, _⟩ => ⟨S4096x6144, .f32⟩
  | .hbm, ⟨66, _⟩ => ⟨S4096x6144, .f32⟩
  | .hbm, ⟨67, _⟩ => ⟨S4096x6144, .f32⟩
  | .hbm, ⟨68, _⟩ => ⟨S2016x6144, .f32⟩
  | .hbm, ⟨69, _⟩ => ⟨S6144x2016, .f32⟩
  | .hbm, ⟨70, _⟩ => ⟨S4096x2016, .f32⟩
  | .hbm, ⟨71, _⟩ => ⟨S1x2016, .f32⟩
  | .hbm, ⟨72, _⟩ => ⟨S4096x2016, .f32⟩
  | .hbm, ⟨73, _⟩ => ⟨S4096x2016, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  transposes_S6144x2048_S2048x6144_1_0 : S6144x2048.Transposes [1, 0] S2048x6144
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  bcast_S_S4096x6144 : S_.BroadcastsInDim S4096x6144 (![] : Fin 0 → Fin S4096x6144.rank)
  transposes_S6144x6144_S6144x6144_1_0 : S6144x6144.Transposes [1, 0] S6144x6144
  transposes_S2016x6144_S6144x2016_1_0 : S2016x6144.Transposes [1, 0] S6144x2016
  bcast_S2016_S1x2016_1 : S2016.BroadcastsInDim S1x2016 (![1] : Fin 1 → Fin S1x2016.rank)
  bcast_S1x2016_S4096x2016_0_1 : S1x2016.BroadcastsInDim S4096x2016 (![0, 1] : Fin 2 → Fin S4096x2016.rank)
  dot_S4096x2048_S2048x6144_S4096x6144_1_0_0_1_n_n_wf : DotDims.WF S4096x2048 S2048x6144 S4096x6144 [1] [0] [0] [1] [] []
  dot_S4096x6144_S6144x6144_S4096x6144_1_0_0_1_n_n_wf : DotDims.WF S4096x6144 S6144x6144 S4096x6144 [1] [0] [0] [1] [] []
  dot_S4096x6144_S6144x2016_S4096x2016_1_0_0_1_n_n_wf : DotDims.WF S4096x6144 S6144x2016 S4096x2016 [1] [0] [0] [1] [] []

variable [Facts₀]

def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S4096x6144_S6144x6144_S4096x6144_1_0_0_1_n_n : DotDims S4096x6144 S6144x6144 S4096x6144 where
  lhsContracting := [1]
  rhsContracting := [0]
  lhsNonContracting := [0]
  rhsNonContracting := [1]
  lhsBatch := []
  rhsBatch := []
  wf := dot_S4096x6144_S6144x6144_S4096x6144_1_0_0_1_n_n_wf
def dot_S4096x6144_S6144x2016_S4096x2016_1_0_0_1_n_n : DotDims S4096x6144 S6144x2016 S4096x2016 where
  lhsContracting := [1]
  rhsContracting := [0]
  lhsNonContracting := [0]
  rhsNonContracting := [1]
  lhsBatch := []
  rhsBatch := []
  wf := dot_S4096x6144_S6144x2016_S4096x2016_1_0_0_1_n_n_wf

class Facts : Prop extends Facts₀ where

variable [Facts]
-- ==== Proof.Fold.lean ====
/-
  The buffer contents the kernel's program passes from one region to the next.

  @main alternates short stretches of host operations with five kernel regions.  A region leaves every buffer
  as it found it except its own result array; a host stretch writes only the buffers its operations name.  So at
  each region's entry the activations are the previous region's result (the program's first argument for region 0),
  weight and mask are still the launch contents of their arguments, and the bias row is its argument re-laid as a
  one-row matrix; before the last region weight, mask and bias are first extended by 32 rows of the fill value, and
  the program's result is the leading 2016 columns of the last region's result.
-/
import proofs.«153243_j62912680952394_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The fill value of the three paddings: the integer zero converted to a float. -/
abbrev fill : (⟨S_, .f32⟩ : BufTy).Contents (Elt F) := sitofp .f32 (constantI S_ 32 0#32)

/-! ## A host stretch leaves every buffer it does not write

For each stretch of host operations, in program order: a reference other than the ones the stretch's operations
write holds after the stretch what it held before. -/

section Host

variable (V : Valuation τ sig (Elt F)) {r : Ref sig .tc}

/-- Each operation of a stretch writes one reference, and distinct references are distinct device buffers: so a
    reference distinct from each of them (the hypotheses) is written by no operation of the stretch. -/
local macro "host_keep " ops:ident : tactic =>
  `(tactic| (
    refine StableHlo.after_of_forall_not_mem (b := Proc.devRef .tc _) _ _ (List.forall_iff_forall_mem.mp ?_)
    simp only [$ops:ident, List.Forall, StableHlo.nullary_writes, StableHlo.unary_writes, StableHlo.binary_writes,
      StableHlo.reshape_writes, Finset.mem_singleton]
    repeat' apply And.intro
    all_goals (apply StableHlo.devRef_ne_of_ne; assumption)))

theorem host0_keep (h : r ≠ main_v0) :
    StableHlo.after hostOps0 V (Proc.devRef .tc r) = V (Proc.devRef .tc r) := by host_keep hostOps0
theorem host1_keep (h : r ≠ main_v2) :
    StableHlo.after hostOps1 V (Proc.devRef .tc r) = V (Proc.devRef .tc r) := by host_keep hostOps1
theorem host2_keep (h : r ≠ main_v4) :
    StableHlo.after hostOps2 V (Proc.devRef .tc r) = V (Proc.devRef .tc r) := by host_keep hostOps2
theorem host3_keep (h : r ≠ main_v6) :
    StableHlo.after hostOps3 V (Proc.devRef .tc r) = V (Proc.devRef .tc r) := by host_keep hostOps3
theorem host4_keep (h : r ≠ main_c) :
    StableHlo.after hostOps4 V (Proc.devRef .tc r) = V (Proc.devRef .tc r) := by host_keep hostOps4
theorem host4_1_keep (h : r ≠ main_call0_v0) (h' : r ≠ main_v8) :
    StableHlo.after hostOps4_1 V (Proc.devRef .tc r) = V (Proc.devRef .tc r) := by host_keep hostOps4_1
theorem host4_2_keep (h : r ≠ main_c_0) :
    StableHlo.after hostOps4_2 V (Proc.devRef .tc r) = V (Proc.devRef .tc r) := by host_keep hostOps4_2
theorem host4_3_keep (h : r ≠ main_call1_v0) (h' : r ≠ main_v9) :
    StableHlo.after hostOps4_3 V (Proc.devRef .tc r) = V (Proc.devRef .tc r) := by host_keep hostOps4_3
theorem host4_4_keep (h : r ≠ main_c_1) :
    StableHlo.after hostOps4_4 V (Proc.devRef .tc r) = V (Proc.devRef .tc r) := by host_keep hostOps4_4
theorem host4_5_keep (h : r ≠ main_call2_v0) (h' : r ≠ main_v10) :
    StableHlo.after hostOps4_5 V (Proc.devRef .tc r) = V (Proc.devRef .tc r) := by host_keep hostOps4_5
theorem host4_6_keep (h : r ≠ main_v11) :
    StableHlo.after hostOps4_6 V (Proc.devRef .tc r) = V (Proc.devRef .tc r) := by host_keep hostOps4_6
theorem host5_keep (h : r ≠ main_v13) :
    StableHlo.after hostOps5 V (Proc.devRef .tc r) = V (Proc.devRef .tc r) := by host_keep hostOps5

end Host

/-! ## A region together with the host stretch before it

A buffer that is neither one of the region's five arrays nor written by the stretch before the region holds at the
region's exit what it held before the stretch; an input window's array holds at the exit what it held at the entry. -/

section Stage

variable (c : Dev nD) {r : Ref sig .tc}

theorem W2_keep (h : r ≠ main_v0) (hr : ∀ w, Pipeline.arrRef spec0 w ≠ r) :
    W2 m ρ c (Proc.devRef .tc r) = W0 m ρ c (Proc.devRef .tc r) :=
  (W2_of_ne m ρ c r hr).trans (host0_keep _ h)
theorem W4_keep (h : r ≠ main_v2) (hr : ∀ w, Pipeline.arrRef spec1 w ≠ r) :
    W4 m ρ c (Proc.devRef .tc r) = W2 m ρ c (Proc.devRef .tc r) :=
  (W4_of_ne m ρ c r hr).trans (host1_keep _ h)
theorem W6_keep (h : r ≠ main_v4) (hr : ∀ w, Pipeline.arrRef spec2 w ≠ r) :
    W6 m ρ c (Proc.devRef .tc r) = W4 m ρ c (Proc.devRef .tc r) :=
  (W6_of_ne m ρ c r hr).trans (host2_keep _ h)
theorem W8_keep (h : r ≠ main_v6) (hr : ∀ w, Pipeline.arrRef spec3 w ≠ r) :
    W8 m ρ c (Proc.devRef .tc r) = W6 m ρ c (Proc.devRef .tc r) :=
  (W8_of_ne m ρ c r hr).trans (host3_keep _ h)

/-- A buffer that none of the first four regions owns and none of the four bias reshapes writes holds at region 3's
    exit what it held at launch. -/
theorem W8_launch (h0 : r ≠ main_v0) (h1 : r ≠ main_v2) (h2 : r ≠ main_v4) (h3 : r ≠ main_v6)
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m ρ c (Proc.devRef .tc r) = W0 m ρ c (Proc.devRef .tc r) :=
  (W8_keep m ρ c h3 a3).trans ((W6_keep m ρ c h2 a2).trans ((W4_keep m ρ c h1 a1).trans (W2_keep m ρ c h0 a0)))

end Stage

/-! ## Region 0's entry -/
theorem in0_x (c : Dev nD) : V1 m ρ c main_arg0 = m ((c : Thread nD τ).loc main_arg0) :=
  calc W1 m ρ c (Proc.devRef .tc main_arg0)
    _ = W0 m ρ c (Proc.devRef .tc main_arg0) := host0_keep _ (by decide)
    _ = m ((c : Thread nD τ).loc main_arg0) := rfl
theorem in0_W (c : Dev nD) : V1 m ρ c main_arg1 = m ((c : Thread nD τ).loc main_arg1) :=
  calc W1 m ρ c (Proc.devRef .tc main_arg1)
    _ = W0 m ρ c (Proc.devRef .tc main_arg1) := host0_keep _ (by decide)
    _ = m ((c : Thread nD τ).loc main_arg1) := rfl
theorem in0_M (c : Dev nD) : V1 m ρ c main_arg11 = m ((c : Thread nD τ).loc main_arg11) :=
  calc W1 m ρ c (Proc.devRef .tc main_arg11)
    _ = W0 m ρ c (Proc.devRef .tc main_arg11) := host0_keep _ (by decide)
    _ = m ((c : Thread nD τ).loc main_arg11) := rfl
theorem in0_b (c : Dev nD) : V1 m ρ c main_v0 = shapeCast S1x6144 (m ((c : Thread nD τ).loc main_arg2)) shapeCasts_S6144_S1x6144 := by
  show StableHlo.after hostOps0 (W0 m ρ c) (Proc.devRef .tc main_v0) = _
  after_results
  rfl

/-! ## Region 1's entry -/
theorem in1_x (c : Dev nD) : V3 m ρ c main_v1 = (dat0 (V1 m ρ) c).arrAt 4 cfg0.N :=
  calc W3 m ρ c (Proc.devRef .tc main_v1)
    _ = W2 m ρ c (Proc.devRef .tc main_v1) := host1_keep _ (by decide)
    _ = (dat0 (V1 m ρ) c).arrAt 4 cfg0.N := W2_arr m ρ c 4
theorem in1_W (c : Dev nD) : V3 m ρ c main_arg3 = m ((c : Thread nD τ).loc main_arg3) :=
  calc W3 m ρ c (Proc.devRef .tc main_arg3)
    _ = W2 m ρ c (Proc.devRef .tc main_arg3) := host1_keep _ (by decide)
    _ = W0 m ρ c (Proc.devRef .tc main_arg3) := W2_keep m ρ c (by decide) (by decide)
    _ = m ((c : Thread nD τ).loc main_arg3) := rfl
theorem in1_M (c : Dev nD) : V3 m ρ c main_arg12 = m ((c : Thread nD τ).loc main_arg12) :=
  calc W3 m ρ c (Proc.devRef .tc main_arg12)
    _ = W2 m ρ c (Proc.devRef .tc main_arg12) := host1_keep _ (by decide)
    _ = W0 m ρ c (Proc.devRef .tc main_arg12) := W2_keep m ρ c (by decide) (by decide)
    _ = m ((c : Thread nD τ).loc main_arg12) := rfl
theorem in1_b (c : Dev nD) : V3 m ρ c main_v2 = shapeCast S1x6144 (m ((c : Thread nD τ).loc main_arg4)) shapeCasts_S6144_S1x6144 := by
  have e : W2 m ρ c (Proc.devRef .tc main_arg4) = m ((c : Thread nD τ).loc main_arg4) := W2_keep m ρ c (by decide) (by decide)
  calc W3 m ρ c (Proc.devRef .tc main_v2)
    _ = shapeCast S1x6144 (W2 m ρ c (Proc.devRef .tc main_arg4)) shapeCasts_S6144_S1x6144 := by
        show StableHlo.after hostOps1 (W2 m ρ c) (Proc.devRef .tc main_v2) = _
        after_results
        rfl
    _ = _ := by rw [e]

/-! ## Region 2's entry -/
theorem in2_x (c : Dev nD) : V5 m ρ c main_v3 = (dat1 (V3 m ρ) c).arrAt 4 cfg1.N :=
  calc W5 m ρ c (Proc.devRef .tc main_v3)
    _ = W4 m ρ c (Proc.devRef .tc main_v3) := host2_keep _ (by decide)
    _ = (dat1 (V3 m ρ) c).arrAt 4 cfg1.N := W4_arr m ρ c 4
theorem in2_W (c : Dev nD) : V5 m ρ c main_arg5 = m ((c : Thread nD τ).loc main_arg5) :=
  calc W5 m ρ c (Proc.devRef .tc main_arg5)
    _ = W4 m ρ c (Proc.devRef .tc main_arg5) := host2_keep _ (by decide)
    _ = W2 m ρ c (Proc.devRef .tc main_arg5) := W4_keep m ρ c (by decide) (by decide)
    _ = W0 m ρ c (Proc.devRef .tc main_arg5) := W2_keep m ρ c (by decide) (by decide)
    _ = m ((c : Thread nD τ).loc main_arg5) := rfl
theorem in2_M (c : Dev nD) : V5 m ρ c main_arg13 = m ((c : Thread nD τ).loc main_arg13) :=
  calc W5 m ρ c (Proc.devRef .tc main_arg13)
    _ = W4 m ρ c (Proc.devRef .tc main_arg13) := host2_keep _ (by decide)
    _ = W2 m ρ c (Proc.devRef .tc main_arg13) := W4_keep m ρ c (by decide) (by decide)
    _ = W0 m ρ c (Proc.devRef .tc main_arg13) := W2_keep m ρ c (by decide) (by decide)
    _ = m ((c : Thread nD τ).loc main_arg13) := rfl
theorem in2_b (c : Dev nD) : V5 m ρ c main_v4 = shapeCast S1x6144 (m ((c : Thread nD τ).loc main_arg6)) shapeCasts_S6144_S1x6144 := by
  have e : W4 m ρ c (Proc.devRef .tc main_arg6) = m ((c : Thread nD τ).loc main_arg6) :=
    (W4_keep m ρ c (by decide) (by decide)).trans (W2_keep m ρ c (by decide) (by decide))
  calc W5 m ρ c (Proc.devRef .tc main_v4)
    _ = shapeCast S1x6144 (W4 m ρ c (Proc.devRef .tc main_arg6)) shapeCasts_S6144_S1x6144 := by
        show StableHlo.after hostOps2 (W4 m ρ c) (Proc.devRef .tc main_v4) = _
        after_results
        rfl
    _ = _ := by rw [e]

/-! ## Region 3's entry -/
theorem in3_x (c : Dev nD) : V7 m ρ c main_v5 = (dat2 (V5 m ρ) c).arrAt 4 cfg2.N :=
  calc W7 m ρ c (Proc.devRef .tc main_v5)
    _ = W6 m ρ c (Proc.devRef .tc main_v5) := host3_keep _ (by decide)
    _ = (dat2 (V5 m ρ) c).arrAt 4 cfg2.N := W6_arr m ρ c 4
theorem in3_W (c : Dev nD) : V7 m ρ c main_arg7 = m ((c : Thread nD τ).loc main_arg7) :=
  calc W7 m ρ c (Proc.devRef .tc main_arg7)
    _ = W6 m ρ c (Proc.devRef .tc main_arg7) := host3_keep _ (by decide)
    _ = W4 m ρ c (Proc.devRef .tc main_arg7) := W6_keep m ρ c (by decide) (by decide)
    _ = W2 m ρ c (Proc.devRef .tc main_arg7) := W4_keep m ρ c (by decide) (by decide)
    _ = W0 m ρ c (Proc.devRef .tc main_arg7) := W2_keep m ρ c (by decide) (by decide)
    _ = m ((c : Thread nD τ).loc main_arg7) := rfl
theorem in3_M (c : Dev nD) : V7 m ρ c main_arg14 = m ((c : Thread nD τ).loc main_arg14) :=
  calc W7 m ρ c (Proc.devRef .tc main_arg14)
    _ = W6 m ρ c (Proc.devRef .tc main_arg14) := host3_keep _ (by decide)
    _ = W4 m ρ c (Proc.devRef .tc main_arg14) := W6_keep m ρ c (by decide) (by decide)
    _ = W2 m ρ c (Proc.devRef .tc main_arg14) := W4_keep m ρ c (by decide) (by decide)
    _ = W0 m ρ c (Proc.devRef .tc main_arg14) := W2_keep m ρ c (by decide) (by decide)
    _ = m ((c : Thread nD τ).loc main_arg14) := rfl
theorem in3_b (c : Dev nD) : V7 m ρ c main_v6 = shapeCast S1x6144 (m ((c : Thread nD τ).loc main_arg8)) shapeCasts_S6144_S1x6144 := by
  have e : W6 m ρ c (Proc.devRef .tc main_arg8) = m ((c : Thread nD τ).loc main_arg8) :=
    (W6_keep m ρ c (by decide) (by decide)).trans ((W4_keep m ρ c (by decide) (by decide)).trans (W2_keep m ρ c (by decide) (by decide)))
  calc W7 m ρ c (Proc.devRef .tc main_v6)
    _ = shapeCast S1x6144 (W6 m ρ c (Proc.devRef .tc main_arg8)) shapeCasts_S6144_S1x6144 := by
        show StableHlo.after hostOps3 (W6 m ρ c) (Proc.devRef .tc main_v6) = _
        after_results
        rfl
    _ = _ := by rw [e]

/-! ## Region 4's entry -/
theorem in4_x (c : Dev nD) : V15 m ρ c main_v7 = (dat3 (V7 m ρ) c).arrAt 4 cfg3.N :=
  calc W15 m ρ c (Proc.devRef .tc main_v7)
    _ = W14 m ρ c (Proc.devRef .tc main_v7) := host4_6_keep _ (by decide)
    _ = W13 m ρ c (Proc.devRef .tc main_v7) := host4_5_keep _ (by decide) (by decide)
    _ = W12 m ρ c (Proc.devRef .tc main_v7) := host4_4_keep _ (by decide)
    _ = W11 m ρ c (Proc.devRef .tc main_v7) := host4_3_keep _ (by decide) (by decide)
    _ = W10 m ρ c (Proc.devRef .tc main_v7) := host4_2_keep _ (by decide)
    _ = W9 m ρ c (Proc.devRef .tc main_v7) := host4_1_keep _ (by decide) (by decide)
    _ = W8 m ρ c (Proc.devRef .tc main_v7) := host4_keep _ (by decide)
    _ = (dat3 (V7 m ρ) c).arrAt 4 cfg3.N := W8_arr m ρ c 4
theorem in4_W (c : Dev nD) : V15 m ρ c main_v8
    = pad S2048x6144 ![0, 0] ![32, 0] ![0, 0] (m ((c : Thread nD τ).loc main_arg9)) (fill (F := F)) pads_S2016x6144_S2048x6144_0320_000 h_S_ := by
  have e1 : W9 m ρ c (Proc.devRef .tc main_arg9) = m ((c : Thread nD τ).loc main_arg9) :=
    (host4_keep _ (by decide)).trans (W8_launch m ρ c (by decide) (by decide) (by decide) (by decide) (by decide) (by decide) (by decide) (by decide))
  have e2 : W9 m ρ c (Proc.devRef .tc main_c) = (constantI S_ 32 0#32 : (⟨S_, .i32⟩ : BufTy).Contents (Elt F)) := by
    show StableHlo.after hostOps4 (W8 m ρ c) (Proc.devRef .tc main_c) = _
    after_results
  calc W15 m ρ c (Proc.devRef .tc main_v8)
    _ = W14 m ρ c (Proc.devRef .tc main_v8) := host4_6_keep _ (by decide)
    _ = W13 m ρ c (Proc.devRef .tc main_v8) := host4_5_keep _ (by decide) (by decide)
    _ = W12 m ρ c (Proc.devRef .tc main_v8) := host4_4_keep _ (by decide)
    _ = W11 m ρ c (Proc.devRef .tc main_v8) := host4_3_keep _ (by decide) (by decide)
    _ = W10 m ρ c (Proc.devRef .tc main_v8) := host4_2_keep _ (by decide)
    _ = pad S2048x6144 ![0, 0] ![32, 0] ![0, 0] (W9 m ρ c (Proc.devRef .tc main_arg9)) (sitofp .f32 (W9 m ρ c (Proc.devRef .tc main_c)))
          pads_S2016x6144_S2048x6144_0320_000 h_S_ := by
        show StableHlo.after hostOps4_1 (W9 m ρ c) (Proc.devRef .tc main_v8) = _
        after_results
        rfl
    _ = _ := by rw [e1, e2]
theorem in4_M (c : Dev nD) : V15 m ρ c main_v9
    = pad S2048x6144 ![0, 0] ![32, 0] ![0, 0] (m ((c : Thread nD τ).loc main_arg15)) (fill (F := F)) pads_S2016x6144_S2048x6144_0320_000 h_S_ := by
  have e1 : W11 m ρ c (Proc.devRef .tc main_arg15) = m ((c : Thread nD τ).loc main_arg15) :=
    (host4_2_keep _ (by decide)).trans ((host4_1_keep _ (by decide) (by decide)).trans ((host4_keep _ (by decide)).trans (W8_launch m ρ c (by decide) (by decide) (by decide) (by decide) (by decide) (by decide) (by decide) (by decide))))
  have e2 : W11 m ρ c (Proc.devRef .tc main_c_0) = (constantI S_ 32 0#32 : (⟨S_, .i32⟩ : BufTy).Contents (Elt F)) := by
    show StableHlo.after hostOps4_2 (W10 m ρ c) (Proc.devRef .tc main_c_0) = _
    after_results
  calc W15 m ρ c (Proc.devRef .tc main_v9)
    _ = W14 m ρ c (Proc.devRef .tc main_v9) := host4_6_keep _ (by decide)
    _ = W13 m ρ c (Proc.devRef .tc main_v9) := host4_5_keep _ (by decide) (by decide)
    _ = W12 m ρ c (Proc.devRef .tc main_v9) := host4_4_keep _ (by decide)
    _ = pad S2048x6144 ![0, 0] ![32, 0] ![0, 0] (W11 m ρ c (Proc.devRef .tc main_arg15)) (sitofp .f32 (W11 m ρ c (Proc.devRef .tc main_c_0)))
          pads_S2016x6144_S2048x6144_0320_000 h_S_ := by
        show StableHlo.after hostOps4_3 (W11 m ρ c) (Proc.devRef .tc main_v9) = _
        after_results
        rfl
    _ = _ := by rw [e1, e2]
theorem in4_b (c : Dev nD) : V15 m ρ c main_v11
    = shapeCast S1x2048 (pad S2048 ![0] ![32] ![0] (m ((c : Thread nD τ).loc main_arg10)) (fill (F := F)) pads_S2016_S2048_0320 h_S_) shapeCasts_S2048_S1x2048 := by
  have e1 : W13 m ρ c (Proc.devRef .tc main_arg10) = m ((c : Thread nD τ).loc main_arg10) :=
    (host4_4_keep _ (by decide)).trans ((host4_3_keep _ (by decide) (by decide)).trans ((host4_2_keep _ (by decide)).trans
      ((host4_1_keep _ (by decide) (by decide)).trans ((host4_keep _ (by decide)).trans (W8_launch m ρ c (by decide) (by decide) (by decide) (by decide) (by decide) (by decide) (by decide) (by decide))))))
  have e2 : W13 m ρ c (Proc.devRef .tc main_c_1) = (constantI S_ 32 0#32 : (⟨S_, .i32⟩ : BufTy).Contents (Elt F)) := by
    show StableHlo.after hostOps4_4 (W12 m ρ c) (Proc.devRef .tc main_c_1) = _
    after_results
  have e3 : W14 m ρ c (Proc.devRef .tc main_v10)
      = pad S2048 ![0] ![32] ![0] (m ((c : Thread nD τ).loc main_arg10)) (fill (F := F)) pads_S2016_S2048_0320 h_S_ :=
    calc W14 m ρ c (Proc.devRef .tc main_v10)
      _ = pad S2048 ![0] ![32] ![0] (W13 m ρ c (Proc.devRef .tc main_arg10)) (sitofp .f32 (W13 m ρ c (Proc.devRef .tc main_c_1)))
            pads_S2016_S2048_0320 h_S_ := by
          show StableHlo.after hostOps4_5 (W13 m ρ c) (Proc.devRef .tc main_v10) = _
          after_results
          rfl
      _ = _ := by rw [e1, e2]
  calc W15 m ρ c (Proc.devRef .tc main_v11)
    _ = shapeCast S1x2048 (W14 m ρ c (Proc.devRef .tc main_v10)) shapeCasts_S2048_S1x2048 := by
        show StableHlo.after hostOps4_6 (W14 m ρ c) (Proc.devRef .tc main_v11) = _
        after_results
        rfl
    _ = _ := by rw [e3]

/-! ## The program's result -/
theorem out (c : Dev nD) : W17 m ρ c (Proc.devRef .tc main_v13)
    = extractStridedSlice S4096x2016 ![0, 0] ((dat4 (V15 m ρ) c).arrAt 4 cfg4.N) slices_S4096x2048_S4096x2016_0_0 := by
  have e : W16 m ρ c (Proc.devRef .tc main_v12) = (dat4 (V15 m ρ) c).arrAt 4 cfg4.N := W16_arr m ρ c 4
  calc W17 m ρ c (Proc.devRef .tc main_v13)
    _ = extractStridedSlice S4096x2016 ![0, 0] (W16 m ρ c (Proc.devRef .tc main_v12)) slices_S4096x2048_S4096x2016_0_0 := by
        show StableHlo.after hostOps5 (W16 m ρ c) (Proc.devRef .tc main_v13) = _
        after_results
    _ = _ := by rw [e]

end Cert.KernelIdeal.Fold

end
-- ==== Proof.Spec.lean ====
/-
  The mathematics both programs compute: a stack of five masked linear layers.

  One layer sends an activation matrix `x` (batch × in-features), a weight matrix `W` and a 0/1-style mask `M`
  (both out-features × in-features) and a bias vector `b` to the matrix whose entry (i, j) is
      ∑ₖ x[i, k] · (W[j, k] · M[j, k]) + b[j],
  every operation the exact one on the extended reals.  The four hidden layers follow it by the leaky slope
  `v ↦ v` where `v ≥ 0` and `c · v` elsewhere, `c` the float word both programs carry; the last layer has no slope.

  Nothing here mentions a program: the two sides are compared against these functions.
-/
import Idealize.ShloMosaic.PureOps.Ideal.Laws
import Idealize.ShloMosaic.Lib.ValueIdx

noncomputable section

open scoped BigOperators

namespace Cert.MaskedStack

open Idealize.ShloMosaic Idealize.ShloMosaic.ValueIdx

/-- The leaky slope on one extended real: `v` itself where `v ≥ 0`, the slope word times `v` elsewhere.  Both float
    words stay words: each program carries the same two. -/
def leaky (v : EReal) : EReal :=
  Scalar.select (FloatOps.cmpf (F := Ideal) (φ := .f32) .oge v (Ideal.ofBits .f32 0x00000000#32)) v
    (Ideal.ofBits .f32 0x3C23D70A#32 * v)

/-- A masked linear layer before any slope: entry (i, j) is `∑ₖ x[i,k] · (W[j,k] · M[j,k]) + b[j]`. -/
def affine {B K N : Nat} (x : (⟨2, ![B, K]⟩ : Shape).Idx → EReal) (W M : (⟨2, ![N, K]⟩ : Shape).Idx → EReal)
    (b : (⟨1, ![N]⟩ : Shape).Idx → EReal) : (⟨2, ![B, N]⟩ : Shape).Idx → EReal :=
  fun j => (∑ k : Fin K, x (ix2 (j 0) k) * (W (ix2 (j 1) k) * M (ix2 (j 1) k))) + b (ix1 (j 1))

/-- A hidden layer: the masked linear layer followed by the leaky slope, entry by entry. -/
def hidden {B K N : Nat} (x : (⟨2, ![B, K]⟩ : Shape).Idx → EReal) (W M : (⟨2, ![N, K]⟩ : Shape).Idx → EReal)
    (b : (⟨1, ![N]⟩ : Shape).Idx → EReal) : (⟨2, ![B, N]⟩ : Shape).Idx → EReal :=
  fun j => leaky (affine x W M b j)

/-- A bias kept as a one-row matrix, read as the vector it is. -/
def rowOf {N : Nat} (b2 : (⟨2, ![1, N]⟩ : Shape).Idx → EReal) : (⟨1, ![N]⟩ : Shape).Idx → EReal :=
  fun q => b2 (ix2 (0 : Fin 1) (q 0))

/-- The whole stack: four hidden layers and the last, slope-free one. -/
def stack (x : (⟨2, ![4096, 2048]⟩ : Shape).Idx → EReal)
    (W0 M0 : (⟨2, ![6144, 2048]⟩ : Shape).Idx → EReal) (b0 : (⟨1, ![6144]⟩ : Shape).Idx → EReal)
    (W1 M1 : (⟨2, ![6144, 6144]⟩ : Shape).Idx → EReal) (b1 : (⟨1, ![6144]⟩ : Shape).Idx → EReal)
    (W2 M2 : (⟨2, ![6144, 6144]⟩ : Shape).Idx → EReal) (b2 : (⟨1, ![6144]⟩ : Shape).Idx → EReal)
    (W3 M3 : (⟨2, ![6144, 6144]⟩ : Shape).Idx → EReal) (b3 : (⟨1, ![6144]⟩ : Shape).Idx → EReal)
    (Wo Mo : (⟨2, ![2016, 6144]⟩ : Shape).Idx → EReal) (bo : (⟨1, ![2016]⟩ : Shape).Idx → EReal) :
    (⟨2, ![4096, 2016]⟩ : Shape).Idx → EReal :=
  affine (hidden (hidden (hidden (hidden x W0 M0 b0) W1 M1 b1) W2 M2 b2) W3 M3 b3) Wo Mo bo

/-- Rows added below the weight, mask and bias of a layer do not touch the columns that were there: if the longer
    operands agree with the shorter ones on the first `N` out-features, the longer layer's entry (i, j), `j < N`, is the
    shorter layer's. -/
theorem affine_of_agree {B K N N' : Nat} (x : (⟨2, ![B, K]⟩ : Shape).Idx → EReal)
    (W M : (⟨2, ![N, K]⟩ : Shape).Idx → EReal) (b : (⟨1, ![N]⟩ : Shape).Idx → EReal)
    (W' M' : (⟨2, ![N', K]⟩ : Shape).Idx → EReal) (b' : (⟨1, ![N']⟩ : Shape).Idx → EReal)
    (i : Fin B) (j : Fin N) (j' : Fin N')
    (hW : ∀ k : Fin K, W' (ix2 j' k) = W (ix2 j k)) (hM : ∀ k : Fin K, M' (ix2 j' k) = M (ix2 j k))
    (hb : b' (ix1 j') = b (ix1 j)) :
    affine x W' M' b' (ix2 i j') = affine x W M b (ix2 i j) := by
  show (∑ k : Fin K, x (ix2 i k) * (W' (ix2 j' k) * M' (ix2 j' k))) + b' (ix1 j')
     = (∑ k : Fin K, x (ix2 i k) * (W (ix2 j k) * M (ix2 j k))) + b (ix1 j)
  rw [hb]
  congr 1
  exact Finset.sum_congr rfl fun k _ => by rw [hW k, hM k]

end Cert.MaskedStack

end
-- ==== Proof.Layer0.lean ====
/-
  Region 0 of the kernel's program, at the ideal instance: the first hidden layer.

  At every grid point the body loads a block of activations `x` (256 rows, all 2048 in-features), the matching
  128-row blocks of the weight `W` and the mask `M`, and 128 bias entries kept as a one-row matrix; it forms
  `W · M` entry by entry, contracts it with `x` over the in-feature axis on the matrix unit into a zero accumulator,
  adds the bias row to every row, applies the leaky slope and stores the 256 × 128 block.  A narrowing of the float format and a
  re-laying to the same shape are the identity on extended reals, and a sum started from the zero word is the sum.  The grid's points tile the
  4096 × 6144 result, so after the region the result array is the layer function of the arrays the region found:
  entry (i, j) is the slope of `∑ₖ x[i,k] · (W[j,k] · M[j,k]) + b[0,j]`.
-/
import proofs.«153243_j62912680952394_1_alg».proof.Proof.Gen.KernelIdeal.Frame
import proofs.«153243_j62912680952394_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer0

open Cert.KernelIdeal Cert.KernelIdeal.Gen Cert.MaskedStack
open Idealize.ShloMosaic Idealize.ShloMosaic.TcCoe Idealize.ShloMosaic.ValueIdx Idealize.SL.Sem
open Idealize.ShloMosaic.Pipeline (Dat Cfg Window)

/-! ## The matrix unit's product at an entry -/

/-- The left operand's row is the result's row. -/
theorem lhs_row (i : S256x128.Idx) (q : dot_S256x2048_S128x2048_S256x128_1_1_0_0_n_n.contr.Idx) :
    (dot_S256x2048_S128x2048_S256x128_1_1_0_0_n_n.lhsIdx i q 0).val = (i 0).val := by
  unfold DotDims.lhsIdx
  rw [dif_neg (show ¬(0 : Fin S256x2048.rank) ∈ dot_S256x2048_S128x2048_S256x128_1_1_0_0_n_n.lhsBatch by decide), dif_pos (show (0 : Fin S256x2048.rank) ∈ dot_S256x2048_S128x2048_S256x128_1_1_0_0_n_n.lhsNonContracting by decide)]
  rfl
/-- The left operand's column is the contracted index. -/
theorem lhs_col (i : S256x128.Idx) (q : dot_S256x2048_S128x2048_S256x128_1_1_0_0_n_n.contr.Idx) :
    (dot_S256x2048_S128x2048_S256x128_1_1_0_0_n_n.lhsIdx i q 1).val = (q ⟨0, by decide⟩).val :=
  dot_S256x2048_S128x2048_S256x128_1_1_0_0_n_n.lhsIdx_val_of_single rfl i q
/-- The right operand's row is the result's column. -/
theorem rhs_row (i : S256x128.Idx) (q : dot_S256x2048_S128x2048_S256x128_1_1_0_0_n_n.contr.Idx) :
    (dot_S256x2048_S128x2048_S256x128_1_1_0_0_n_n.rhsIdx i q 0).val = (i 1).val := by
  unfold DotDims.rhsIdx
  rw [dif_neg (show ¬(0 : Fin S128x2048.rank) ∈ dot_S256x2048_S128x2048_S256x128_1_1_0_0_n_n.rhsBatch by decide), dif_pos (show (0 : Fin S128x2048.rank) ∈ dot_S256x2048_S128x2048_S256x128_1_1_0_0_n_n.rhsNonContracting by decide)]
  rfl
/-- The right operand's column is the contracted index. -/
theorem rhs_col (i : S256x128.Idx) (q : dot_S256x2048_S128x2048_S256x128_1_1_0_0_n_n.contr.Idx) :
    (dot_S256x2048_S128x2048_S256x128_1_1_0_0_n_n.rhsIdx i q 1).val = (q ⟨0, by decide⟩).val :=
  dot_S256x2048_S128x2048_S256x128_1_1_0_0_n_n.rhsIdx_val_of_single rfl i q

/-- Both operands contracted over their second axis into a zero accumulator: entry (p, q) is `∑ₖ a[p,k] · w[q,k]`. -/
theorem matmul_entry {φ₁ φ₂ : FTy} (a : FVec Ideal S256x2048 φ₁) (w : FVec Ideal S128x2048 φ₂) (p : Fin 256) (q : Fin 128) :
    matmul dot_S256x2048_S128x2048_S256x128_1_1_0_0_n_n none a w (constant S256x128 .f32 0x00000000#32) (ix2 p q)
      = ∑ k : Fin 2048, a (ix2 p k) * w (ix2 q k) := by
  show FloatOps.matmul dot_S256x2048_S128x2048_S256x128_1_1_0_0_n_n none a w (constant S256x128 .f32 0x00000000#32) (ix2 p q) = _
  rw [Ideal.matmul_constant_zero_apply, ← Equiv.sum_comp (contrEquiv1 dot_S256x2048_S128x2048_S256x128_1_1_0_0_n_n 2048 rfl rfl).symm]
  refine Finset.sum_congr rfl fun k _ => ?_
  have hk := contrEquiv1_symm_val dot_S256x2048_S128x2048_S256x128_1_1_0_0_n_n 2048 rfl rfl k
  have el : dot_S256x2048_S128x2048_S256x128_1_1_0_0_n_n.lhsIdx (ix2 p q) ((contrEquiv1 dot_S256x2048_S128x2048_S256x128_1_1_0_0_n_n 2048 rfl rfl).symm k) = ix2 p k := funext fun ax => Fin.ext (by
    match ax with
    | ⟨0, _⟩ => exact lhs_row _ _
    | ⟨1, _⟩ => exact (lhs_col _ _).trans hk)
  have er : dot_S256x2048_S128x2048_S256x128_1_1_0_0_n_n.rhsIdx (ix2 p q) ((contrEquiv1 dot_S256x2048_S128x2048_S256x128_1_1_0_0_n_n 2048 rfl rfl).symm k) = ix2 q k := funext fun ax => Fin.ext (by
    match ax with
    | ⟨0, _⟩ => exact rhs_row _ _
    | ⟨1, _⟩ => exact (rhs_col _ _).trans hk)
  rw [el, er]

/-! ## The body's stored value at an entry -/

/-- The one-row bias broadcast down the block's rows reads, at (p, q), the row's entry q. -/
theorem bias_entry (b : S1x128.Idx → EReal) (p : Fin 256) (q : Fin 128) :
    broadcastTo S256x128 b broadcasts_S1x128_S256x128 (ix2 p q) = b (ix2 (0 : Fin 1) q) := by
  refine broadcastTo_apply b broadcasts_S1x128_S256x128 (ix2 p q) (ix2 (0 : Fin 1) q) fun ax => ?_
  match ax with
  | ⟨0, _⟩ => rfl
  | ⟨1, _⟩ => rfl

/-- What the body stores, at entry (p, q) of the block, from the blocks it loaded. -/
theorem pay_entry (x0 : Vec Ideal S256x2048 .f32) (x1 x2 : Vec Ideal S128x2048 .f32) (x3 : Vec Ideal S1x128 .f32) (p : Fin 256) (q : Fin 128) :
    k0_pay1 (F := Ideal) x0 x1 x2 x3 (ix2 p q)
      = leaky ((∑ k : Fin 2048, x0 (ix2 p k) * (x1 (ix2 q k) * x2 (ix2 q k))) + x3 (ix2 (0 : Fin 1) q)) := by
  unfold k0_pay1 leaky
  simp only [shapeCast_self]
  show Scalar.select (FloatOps.cmpf .oge (_ + _) _) (_ + _) (_ * (_ + _)) = _
  rw [matmul_entry, bias_entry]
  rfl

/-! ## From blocks to the array -/

variable (V : (c : Dev nD) → (b : Ref sig .tc) → Buf (Elt Ideal) ((c : Thread nD τ).loc b))

/-- The arrays the region finds, at their literal types. -/
abbrev xArr (c : Dev nD) : S4096x2048.Idx → EReal := V c main_arg0
abbrev wArr (c : Dev nD) : S6144x2048.Idx → EReal := V c main_arg1
abbrev mArr (c : Dev nD) : S6144x2048.Idx → EReal := V c main_arg11
abbrev bArr (c : Dev nD) : S1x6144.Idx → EReal := V c main_v0

/-- The layer function of those arrays. -/
def G (c : Dev nD) : S4096x6144.Idx → EReal :=
  hidden (xArr V c) (wArr V c) (mArr V c) (rowOf (bArr V c))

theorem hz : (![0, 0] : Fin 2 → Nat) = fun _ => 0 := funext fun a => by fin_cases a <;> rfl

/-- The printed index maps over the grid: activations move with the result's row block and take every in-feature;
    weight, mask and bias move with the result's column block. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 47 :=
  (by decide +kernel : ∀ t : Fin grid0.N, _)

/-- The result window's block at point `t`: the row block is `t mod 16`, the column block `t div 16` (the grid runs
    over column blocks slowly and row blocks fast). -/
theorem idx_point : ∀ t : Fin cfg0.N,
    win0_4.index t (0 : Fin 2) = t.val % 16 ∧ win0_4.index t (1 : Fin 2) = t.val / 16 :=
  (by decide +kernel : ∀ t : Fin grid0.N, _)

/-- The activation block at a point, read where the result block's row says. -/
theorem x_block (c : Dev nD) (t : Fin cfg0.N) (p : Fin 256) (k : Fin 2048) (r : Fin 4096)
    (hr : r.val = win0_4.index t (0 : Fin 2) * 256 + p.val) :
    iblk0 V c 0 t (ix2 p k) = xArr V c (ix2 r k) := by
  obtain ⟨e0, e1, -⟩ := idx_facts t
  show V c main_arg0 (((cfg0.win 0).blk t).view.emb (ix2 p k)) = V c main_arg0 (ix2 r k)
  refine congrArg (V c main_arg0) (funext fun ax => Fin.ext ?_)
  match ax with
  | ⟨0, _⟩ => show win0_0.index t (0 : Fin 2) * 256 + 1 * p.val = r.val; omega
  | ⟨1, _⟩ => show win0_0.index t (1 : Fin 2) * 2048 + 1 * k.val = k.val; omega

/-- The weight block at a point, read where the result block's column says. -/
theorem w_block (c : Dev nD) (t : Fin cfg0.N) (q : Fin 128) (k : Fin 2048) (s : Fin 6144)
    (hs : s.val = win0_4.index t (1 : Fin 2) * 128 + q.val) :
    iblk0 V c 1 t (ix2 q k) = wArr V c (ix2 s k) := by
  obtain ⟨-, -, e2, e3, -⟩ := idx_facts t
  show V c main_arg1 (((cfg0.win 1).blk t).view.emb (ix2 q k)) = V c main_arg1 (ix2 s k)
  refine congrArg (V c main_arg1) (funext fun ax => Fin.ext ?_)
  match ax with
  | ⟨0, _⟩ => show win0_1.index t (0 : Fin 2) * 128 + 1 * q.val = s.val; omega
  | ⟨1, _⟩ => show win0_1.index t (1 : Fin 2) * 2048 + 1 * k.val = k.val; omega

/-- The mask block at a point, likewise. -/
theorem m_block (c : Dev nD) (t : Fin cfg0.N) (q : Fin 128) (k : Fin 2048) (s : Fin 6144)
    (hs : s.val = win0_4.index t (1 : Fin 2) * 128 + q.val) :
    iblk0 V c 2 t (ix2 q k) = mArr V c (ix2 s k) := by
  obtain ⟨-, -, -, -, e4, e5, -⟩ := idx_facts t
  show V c main_arg11 (((cfg0.win 2).blk t).view.emb (ix2 q k)) = V c main_arg11 (ix2 s k)
  refine congrArg (V c main_arg11) (funext fun ax => Fin.ext ?_)
  match ax with
  | ⟨0, _⟩ => show win0_2.index t (0 : Fin 2) * 128 + 1 * q.val = s.val; omega
  | ⟨1, _⟩ => show win0_2.index t (1 : Fin 2) * 2048 + 1 * k.val = k.val; omega

/-- The bias block at a point: the row's entries under the result block's columns. -/
theorem b_block (c : Dev nD) (t : Fin cfg0.N) (q : Fin 128) (s : Fin 6144)
    (hs : s.val = win0_4.index t (1 : Fin 2) * 128 + q.val) :
    iblk0 V c 3 t (ix2 (0 : Fin 1) q) = bArr V c (ix2 (0 : Fin 1) s) := by
  obtain ⟨-, -, -, -, -, -, e6, e7, -⟩ := idx_facts t
  show V c main_v0 (((cfg0.win 3).blk t).view.emb (ix2 (0 : Fin 1) q)) = V c main_v0 (ix2 (0 : Fin 1) s)
  refine congrArg (V c main_v0) (funext fun ax => Fin.ext ?_)
  match ax with
  | ⟨0, _⟩ => show win0_3.index t (0 : Fin 2) * 1 + 1 * 0 = 0; omega
  | ⟨1, _⟩ => show win0_3.index t (1 : Fin 2) * 128 + 1 * q.val = s.val; omega

/-- What point `t` writes back is block `t` of the layer function. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S256x2048) hz, View.ld_unit_zero (S := S128x2048) hz, View.ld_unit_zero (S := S1x128) hz]
  funext j
  obtain ⟨p, q, rfl⟩ : ∃ (p : Fin 256) (q : Fin 128), j = ix2 p q := ⟨j 0, j 1, eq_ix2 j⟩
  obtain ⟨-, -, -, -, -, -, -, -, b0, b1⟩ := idx_facts t
  have hr : win0_4.index t (0 : Fin 2) * 256 + p.val < 4096 := by have := p.isLt; omega
  have hs : win0_4.index t (1 : Fin 2) * 128 + q.val < 6144 := by have := q.isLt; omega
  refine (pay_entry (iblk0 V c 0 t) (iblk0 V c 1 t) (iblk0 V c 2 t) (iblk0 V c 3 t) p q).trans ?_
  have hemb : ((cfg0.win 4).blk t).view.emb (ix2 p q) = ix2 (⟨_, hr⟩ : Fin 4096) (⟨_, hs⟩ : Fin 6144) := funext fun ax => Fin.ext (by
    match ax with
    | ⟨0, _⟩ => show win0_4.index t (0 : Fin 2) * 256 + 1 * p.val = win0_4.index t (0 : Fin 2) * 256 + p.val; omega
    | ⟨1, _⟩ => show win0_4.index t (1 : Fin 2) * 128 + 1 * q.val = win0_4.index t (1 : Fin 2) * 128 + q.val; omega)
  show _ = G V c (((cfg0.win 4).blk t).view.emb (ix2 p q))
  rw [hemb, b_block V c t q ⟨_, hs⟩ rfl]
  show _ = leaky ((∑ k : Fin 2048, xArr V c (ix2 ⟨_, hr⟩ k) * (wArr V c (ix2 ⟨_, hs⟩ k) * mArr V c (ix2 ⟨_, hs⟩ k))) + bArr V c (ix2 (0 : Fin 1) ⟨_, hs⟩))
  refine congrArg (fun z => leaky (z + _)) (Finset.sum_congr rfl fun k _ => ?_)
  rw [x_block V c t p k ⟨_, hr⟩ rfl, w_block V c t q k ⟨_, hs⟩ rfl, m_block V c t q k ⟨_, hs⟩ rfl]

/-- An index of the result is in point `t`'s block iff each coordinate is in the block's range on its axis. -/
theorem mem_blk (t : Fin cfg0.N) (i : S4096x6144.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v1).slice (win0_4.rect t)).set ↔ _
  rw [View.set_slice_whole, Rect.mem_set_unit]
  exact Iff.rfl

/-- The blocks tile the result: entry (i, j) lies in the block of row block `i / 256` and column block `j / 128`. -/
theorem cover (i : S4096x6144.Idx) : ∃ t : Fin cfg0.N, (cfg0.win 4).flush t = true ∧ i ∈ ((cfg0.win 4).blk t).view.set := by
  have hi0 : (i 0).val < 4096 := (i 0).isLt
  have hi1 : (i 1).val < 6144 := (i 1).isLt
  have hN : cfg0.N = 768 := rfl
  have ht : (i 1).val / 128 * 16 + (i 0).val / 256 < cfg0.N := by rw [hN]; omega
  have q0 : win0_4.index ⟨_, ht⟩ (0 : Fin 2) = ((i 1).val / 128 * 16 + (i 0).val / 256) % 16 := (idx_point ⟨_, ht⟩).1
  have q1 : win0_4.index ⟨_, ht⟩ (1 : Fin 2) = ((i 1).val / 128 * 16 + (i 0).val / 256) / 16 := (idx_point ⟨_, ht⟩).2
  refine ⟨⟨_, ht⟩, flush0_4 _, ?_⟩
  rw [mem_blk]
  intro a
  match a with
  | ⟨0, _⟩ => show win0_4.index ⟨_, ht⟩ (0 : Fin 2) * 256 ≤ (i 0).val ∧ (i 0).val < win0_4.index ⟨_, ht⟩ (0 : Fin 2) * 256 + 256; omega
  | ⟨1, _⟩ => show win0_4.index ⟨_, ht⟩ (1 : Fin 2) * 128 ≤ (i 1).val ∧ (i 1).val < win0_4.index ⟨_, ht⟩ (1 : Fin 2) * 128 + 128; omega

/-- After the region its result array is the layer function of the arrays it found. -/
theorem value (c : Dev nD) : (dat0 V c).arrAt 4 cfg0.N = G V c :=
  (dat0 V c).arrAt_eq_of_cover 4 (G V c) (fun t _ => flushed_eq V c t) (cover)

end Cert.KernelIdeal.Layer0

end
-- ==== Proof.Layer1.lean ====
/-
  Region 1 of the kernel's program, at the ideal instance: the second hidden layer.

  At every grid point the body loads a block of activations `x` (256 rows, all 6144 in-features), the matching
  128-row blocks of the weight `W` and the mask `M`, and 128 bias entries kept as a one-row matrix; it forms
  `W · M` entry by entry, contracts it with `x` over the in-feature axis on the matrix unit into a zero accumulator,
  adds the bias row to every row, applies the leaky slope and stores the 256 × 128 block.  A narrowing of the float format and a
  re-laying to the same shape are the identity on extended reals, and a sum started from the zero word is the sum.  The grid's points tile the
  4096 × 6144 result, so after the region the result array is the layer function of the arrays the region found:
  entry (i, j) is the slope of `∑ₖ x[i,k] · (W[j,k] · M[j,k]) + b[0,j]`.
-/
import proofs.«153243_j62912680952394_1_alg».proof.Proof.Gen.KernelIdeal.Frame
import proofs.«153243_j62912680952394_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer1

open Cert.KernelIdeal Cert.KernelIdeal.Gen Cert.MaskedStack
open Idealize.ShloMosaic Idealize.ShloMosaic.TcCoe Idealize.ShloMosaic.ValueIdx Idealize.SL.Sem
open Idealize.ShloMosaic.Pipeline (Dat Cfg Window)

/-! ## The matrix unit's product at an entry -/

/-- The left operand's row is the result's row. -/
theorem lhs_row (i : S256x128.Idx) (q : dot_S256x6144_S128x6144_S256x128_1_1_0_0_n_n.contr.Idx) :
    (dot_S256x6144_S128x6144_S256x128_1_1_0_0_n_n.lhsIdx i q 0).val = (i 0).val := by
  unfold DotDims.lhsIdx
  rw [dif_neg (show ¬(0 : Fin S256x6144.rank) ∈ dot_S256x6144_S128x6144_S256x128_1_1_0_0_n_n.lhsBatch by decide), dif_pos (show (0 : Fin S256x6144.rank) ∈ dot_S256x6144_S128x6144_S256x128_1_1_0_0_n_n.lhsNonContracting by decide)]
  rfl
/-- The left operand's column is the contracted index. -/
theorem lhs_col (i : S256x128.Idx) (q : dot_S256x6144_S128x6144_S256x128_1_1_0_0_n_n.contr.Idx) :
    (dot_S256x6144_S128x6144_S256x128_1_1_0_0_n_n.lhsIdx i q 1).val = (q ⟨0, by decide⟩).val :=
  dot_S256x6144_S128x6144_S256x128_1_1_0_0_n_n.lhsIdx_val_of_single rfl i q
/-- The right operand's row is the result's column. -/
theorem rhs_row (i : S256x128.Idx) (q : dot_S256x6144_S128x6144_S256x128_1_1_0_0_n_n.contr.Idx) :
    (dot_S256x6144_S128x6144_S256x128_1_1_0_0_n_n.rhsIdx i q 0).val = (i 1).val := by
  unfold DotDims.rhsIdx
  rw [dif_neg (show ¬(0 : Fin S128x6144.rank) ∈ dot_S256x6144_S128x6144_S256x128_1_1_0_0_n_n.rhsBatch by decide), dif_pos (show (0 : Fin S128x6144.rank) ∈ dot_S256x6144_S128x6144_S256x128_1_1_0_0_n_n.rhsNonContracting by decide)]
  rfl
/-- The right operand's column is the contracted index. -/
theorem rhs_col (i : S256x128.Idx) (q : dot_S256x6144_S128x6144_S256x128_1_1_0_0_n_n.contr.Idx) :
    (dot_S256x6144_S128x6144_S256x128_1_1_0_0_n_n.rhsIdx i q 1).val = (q ⟨0, by decide⟩).val :=
  dot_S256x6144_S128x6144_S256x128_1_1_0_0_n_n.rhsIdx_val_of_single rfl i q

/-- Both operands contracted over their second axis into a zero accumulator: entry (p, q) is `∑ₖ a[p,k] · w[q,k]`. -/
theorem matmul_entry {φ₁ φ₂ : FTy} (a : FVec Ideal S256x6144 φ₁) (w : FVec Ideal S128x6144 φ₂) (p : Fin 256) (q : Fin 128) :
    matmul dot_S256x6144_S128x6144_S256x128_1_1_0_0_n_n none a w (constant S256x128 .f32 0x00000000#32) (ix2 p q)
      = ∑ k : Fin 6144, a (ix2 p k) * w (ix2 q k) := by
  show FloatOps.matmul dot_S256x6144_S128x6144_S256x128_1_1_0_0_n_n none a w (constant S256x128 .f32 0x00000000#32) (ix2 p q) = _
  rw [Ideal.matmul_constant_zero_apply, ← Equiv.sum_comp (contrEquiv1 dot_S256x6144_S128x6144_S256x128_1_1_0_0_n_n 6144 rfl rfl).symm]
  refine Finset.sum_congr rfl fun k _ => ?_
  have hk := contrEquiv1_symm_val dot_S256x6144_S128x6144_S256x128_1_1_0_0_n_n 6144 rfl rfl k
  have el : dot_S256x6144_S128x6144_S256x128_1_1_0_0_n_n.lhsIdx (ix2 p q) ((contrEquiv1 dot_S256x6144_S128x6144_S256x128_1_1_0_0_n_n 6144 rfl rfl).symm k) = ix2 p k := funext fun ax => Fin.ext (by
    match ax with
    | ⟨0, _⟩ => exact lhs_row _ _
    | ⟨1, _⟩ => exact (lhs_col _ _).trans hk)
  have er : dot_S256x6144_S128x6144_S256x128_1_1_0_0_n_n.rhsIdx (ix2 p q) ((contrEquiv1 dot_S256x6144_S128x6144_S256x128_1_1_0_0_n_n 6144 rfl rfl).symm k) = ix2 q k := funext fun ax => Fin.ext (by
    match ax with
    | ⟨0, _⟩ => exact rhs_row _ _
    | ⟨1, _⟩ => exact (rhs_col _ _).trans hk)
  rw [el, er]

/-! ## The body's stored value at an entry -/

/-- The one-row bias broadcast down the block's rows reads, at (p, q), the row's entry q. -/
theorem bias_entry (b : S1x128.Idx → EReal) (p : Fin 256) (q : Fin 128) :
    broadcastTo S256x128 b broadcasts_S1x128_S256x128 (ix2 p q) = b (ix2 (0 : Fin 1) q) := by
  refine broadcastTo_apply b broadcasts_S1x128_S256x128 (ix2 p q) (ix2 (0 : Fin 1) q) fun ax => ?_
  match ax with
  | ⟨0, _⟩ => rfl
  | ⟨1, _⟩ => rfl

/-- What the body stores, at entry (p, q) of the block, from the blocks it loaded. -/
theorem pay_entry (x0 : Vec Ideal S256x6144 .f32) (x1 x2 : Vec Ideal S128x6144 .f32) (x3 : Vec Ideal S1x128 .f32) (p : Fin 256) (q : Fin 128) :
    k1_pay1 (F := Ideal) x0 x1 x2 x3 (ix2 p q)
      = leaky ((∑ k : Fin 6144, x0 (ix2 p k) * (x1 (ix2 q k) * x2 (ix2 q k))) + x3 (ix2 (0 : Fin 1) q)) := by
  unfold k1_pay1 leaky
  simp only [shapeCast_self]
  show Scalar.select (FloatOps.cmpf .oge (_ + _) _) (_ + _) (_ * (_ + _)) = _
  rw [matmul_entry, bias_entry]
  rfl

/-! ## From blocks to the array -/

variable (V : (c : Dev nD) → (b : Ref sig .tc) → Buf (Elt Ideal) ((c : Thread nD τ).loc b))

/-- The arrays the region finds, at their literal types. -/
abbrev xArr (c : Dev nD) : S4096x6144.Idx → EReal := V c main_v1
abbrev wArr (c : Dev nD) : S6144x6144.Idx → EReal := V c main_arg3
abbrev mArr (c : Dev nD) : S6144x6144.Idx → EReal := V c main_arg12
abbrev bArr (c : Dev nD) : S1x6144.Idx → EReal := V c main_v2

/-- The layer function of those arrays. -/
def G (c : Dev nD) : S4096x6144.Idx → EReal :=
  hidden (xArr V c) (wArr V c) (mArr V c) (rowOf (bArr V c))

theorem hz : (![0, 0] : Fin 2 → Nat) = fun _ => 0 := funext fun a => by fin_cases a <;> rfl

/-- The printed index maps over the grid: activations move with the result's row block and take every in-feature;
    weight, mask and bias move with the result's column block. -/
theorem idx_facts : ∀ t : Fin cfg1.N,
    win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = win1_4.index t (1 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 15 ∧ win1_4.index t (1 : Fin 2) ≤ 47 :=
  (by decide +kernel : ∀ t : Fin grid1.N, _)

/-- The result window's block at point `t`: the row block is `t mod 16`, the column block `t div 16` (the grid runs
    over column blocks slowly and row blocks fast). -/
theorem idx_point : ∀ t : Fin cfg1.N,
    win1_4.index t (0 : Fin 2) = t.val % 16 ∧ win1_4.index t (1 : Fin 2) = t.val / 16 :=
  (by decide +kernel : ∀ t : Fin grid1.N, _)

/-- The activation block at a point, read where the result block's row says. -/
theorem x_block (c : Dev nD) (t : Fin cfg1.N) (p : Fin 256) (k : Fin 6144) (r : Fin 4096)
    (hr : r.val = win1_4.index t (0 : Fin 2) * 256 + p.val) :
    iblk1 V c 0 t (ix2 p k) = xArr V c (ix2 r k) := by
  obtain ⟨e0, e1, -⟩ := idx_facts t
  show V c main_v1 (((cfg1.win 0).blk t).view.emb (ix2 p k)) = V c main_v1 (ix2 r k)
  refine congrArg (V c main_v1) (funext fun ax => Fin.ext ?_)
  match ax with
  | ⟨0, _⟩ => show win1_0.index t (0 : Fin 2) * 256 + 1 * p.val = r.val; omega
  | ⟨1, _⟩ => show win1_0.index t (1 : Fin 2) * 6144 + 1 * k.val = k.val; omega

/-- The weight block at a point, read where the result block's column says. -/
theorem w_block (c : Dev nD) (t : Fin cfg1.N) (q : Fin 128) (k : Fin 6144) (s : Fin 6144)
    (hs : s.val = win1_4.index t (1 : Fin 2) * 128 + q.val) :
    iblk1 V c 1 t (ix2 q k) = wArr V c (ix2 s k) := by
  obtain ⟨-, -, e2, e3, -⟩ := idx_facts t
  show V c main_arg3 (((cfg1.win 1).blk t).view.emb (ix2 q k)) = V c main_arg3 (ix2 s k)
  refine congrArg (V c main_arg3) (funext fun ax => Fin.ext ?_)
  match ax with
  | ⟨0, _⟩ => show win1_1.index t (0 : Fin 2) * 128 + 1 * q.val = s.val; omega
  | ⟨1, _⟩ => show win1_1.index t (1 : Fin 2) * 6144 + 1 * k.val = k.val; omega

/-- The mask block at a point, likewise. -/
theorem m_block (c : Dev nD) (t : Fin cfg1.N) (q : Fin 128) (k : Fin 6144) (s : Fin 6144)
    (hs : s.val = win1_4.index t (1 : Fin 2) * 128 + q.val) :
    iblk1 V c 2 t (ix2 q k) = mArr V c (ix2 s k) := by
  obtain ⟨-, -, -, -, e4, e5, -⟩ := idx_facts t
  show V c main_arg12 (((cfg1.win 2).blk t).view.emb (ix2 q k)) = V c main_arg12 (ix2 s k)
  refine congrArg (V c main_arg12) (funext fun ax => Fin.ext ?_)
  match ax with
  | ⟨0, _⟩ => show win1_2.index t (0 : Fin 2) * 128 + 1 * q.val = s.val; omega
  | ⟨1, _⟩ => show win1_2.index t (1 : Fin 2) * 6144 + 1 * k.val = k.val; omega

/-- The bias block at a point: the row's entries under the result block's columns. -/
theorem b_block (c : Dev nD) (t : Fin cfg1.N) (q : Fin 128) (s : Fin 6144)
    (hs : s.val = win1_4.index t (1 : Fin 2) * 128 + q.val) :
    iblk1 V c 3 t (ix2 (0 : Fin 1) q) = bArr V c (ix2 (0 : Fin 1) s) := by
  obtain ⟨-, -, -, -, -, -, e6, e7, -⟩ := idx_facts t
  show V c main_v2 (((cfg1.win 3).blk t).view.emb (ix2 (0 : Fin 1) q)) = V c main_v2 (ix2 (0 : Fin 1) s)
  refine congrArg (V c main_v2) (funext fun ax => Fin.ext ?_)
  match ax with
  | ⟨0, _⟩ => show win1_3.index t (0 : Fin 2) * 1 + 1 * 0 = 0; omega
  | ⟨1, _⟩ => show win1_3.index t (1 : Fin 2) * 128 + 1 * q.val = s.val; omega

/-- What point `t` writes back is block `t` of the layer function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S256x6144) hz, View.ld_unit_zero (S := S128x6144) hz, View.ld_unit_zero (S := S1x128) hz]
  funext j
  obtain ⟨p, q, rfl⟩ : ∃ (p : Fin 256) (q : Fin 128), j = ix2 p q := ⟨j 0, j 1, eq_ix2 j⟩
  obtain ⟨-, -, -, -, -, -, -, -, b0, b1⟩ := idx_facts t
  have hr : win1_4.index t (0 : Fin 2) * 256 + p.val < 4096 := by have := p.isLt; omega
  have hs : win1_4.index t (1 : Fin 2) * 128 + q.val < 6144 := by have := q.isLt; omega
  refine (pay_entry (iblk1 V c 0 t) (iblk1 V c 1 t) (iblk1 V c 2 t) (iblk1 V c 3 t) p q).trans ?_
  have hemb : ((cfg1.win 4).blk t).view.emb (ix2 p q) = ix2 (⟨_, hr⟩ : Fin 4096) (⟨_, hs⟩ : Fin 6144) := funext fun ax => Fin.ext (by
    match ax with
    | ⟨0, _⟩ => show win1_4.index t (0 : Fin 2) * 256 + 1 * p.val = win1_4.index t (0 : Fin 2) * 256 + p.val; omega
    | ⟨1, _⟩ => show win1_4.index t (1 : Fin 2) * 128 + 1 * q.val = win1_4.index t (1 : Fin 2) * 128 + q.val; omega)
  show _ = G V c (((cfg1.win 4).blk t).view.emb (ix2 p q))
  rw [hemb, b_block V c t q ⟨_, hs⟩ rfl]
  show _ = leaky ((∑ k : Fin 6144, xArr V c (ix2 ⟨_, hr⟩ k) * (wArr V c (ix2 ⟨_, hs⟩ k) * mArr V c (ix2 ⟨_, hs⟩ k))) + bArr V c (ix2 (0 : Fin 1) ⟨_, hs⟩))
  refine congrArg (fun z => leaky (z + _)) (Finset.sum_congr rfl fun k _ => ?_)
  rw [x_block V c t p k ⟨_, hr⟩ rfl, w_block V c t q k ⟨_, hs⟩ rfl, m_block V c t q k ⟨_, hs⟩ rfl]

/-- An index of the result is in point `t`'s block iff each coordinate is in the block's range on its axis. -/
theorem mem_blk (t : Fin cfg1.N) (i : S4096x6144.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v3).slice (win1_4.rect t)).set ↔ _
  rw [View.set_slice_whole, Rect.mem_set_unit]
  exact Iff.rfl

/-- The blocks tile the result: entry (i, j) lies in the block of row block `i / 256` and column block `j / 128`. -/
theorem cover (i : S4096x6144.Idx) : ∃ t : Fin cfg1.N, (cfg1.win 4).flush t = true ∧ i ∈ ((cfg1.win 4).blk t).view.set := by
  have hi0 : (i 0).val < 4096 := (i 0).isLt
  have hi1 : (i 1).val < 6144 := (i 1).isLt
  have hN : cfg1.N = 768 := rfl
  have ht : (i 1).val / 128 * 16 + (i 0).val / 256 < cfg1.N := by rw [hN]; omega
  have q0 : win1_4.index ⟨_, ht⟩ (0 : Fin 2) = ((i 1).val / 128 * 16 + (i 0).val / 256) % 16 := (idx_point ⟨_, ht⟩).1
  have q1 : win1_4.index ⟨_, ht⟩ (1 : Fin 2) = ((i 1).val / 128 * 16 + (i 0).val / 256) / 16 := (idx_point ⟨_, ht⟩).2
  refine ⟨⟨_, ht⟩, flush1_4 _, ?_⟩
  rw [mem_blk]
  intro a
  match a with
  | ⟨0, _⟩ => show win1_4.index ⟨_, ht⟩ (0 : Fin 2) * 256 ≤ (i 0).val ∧ (i 0).val < win1_4.index ⟨_, ht⟩ (0 : Fin 2) * 256 + 256; omega
  | ⟨1, _⟩ => show win1_4.index ⟨_, ht⟩ (1 : Fin 2) * 128 ≤ (i 1).val ∧ (i 1).val < win1_4.index ⟨_, ht⟩ (1 : Fin 2) * 128 + 128; omega

/-- After the region its result array is the layer function of the arrays it found. -/
theorem value (c : Dev nD) : (dat1 V c).arrAt 4 cfg1.N = G V c :=
  (dat1 V c).arrAt_eq_of_cover 4 (G V c) (fun t _ => flushed_eq V c t) (cover)

end Cert.KernelIdeal.Layer1

end
-- ==== Proof.Layer2.lean ====
/-
  Region 2 of the kernel's program, at the ideal instance: the third hidden layer.

  At every grid point the body loads a block of activations `x` (256 rows, all 6144 in-features), the matching
  128-row blocks of the weight `W` and the mask `M`, and 128 bias entries kept as a one-row matrix; it forms
  `W · M` entry by entry, contracts it with `x` over the in-feature axis on the matrix unit into a zero accumulator,
  adds the bias row to every row, applies the leaky slope and stores the 256 × 128 block.  A narrowing of the float format and a
  re-laying to the same shape are the identity on extended reals, and a sum started from the zero word is the sum.  The grid's points tile the
  4096 × 6144 result, so after the region the result array is the layer function of the arrays the region found:
  entry (i, j) is the slope of `∑ₖ x[i,k] · (W[j,k] · M[j,k]) + b[0,j]`.
-/
import proofs.«153243_j62912680952394_1_alg».proof.Proof.Gen.KernelIdeal.Frame
import proofs.«153243_j62912680952394_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer2

open Cert.KernelIdeal Cert.KernelIdeal.Gen Cert.MaskedStack
open Idealize.ShloMosaic Idealize.ShloMosaic.TcCoe Idealize.ShloMosaic.ValueIdx Idealize.SL.Sem
open Idealize.ShloMosaic.Pipeline (Dat Cfg Window)

/-! ## The matrix unit's product at an entry -/

/-- The left operand's row is the result's row. -/
theorem lhs_row (i : S256x128.Idx) (q : dot_S256x6144_S128x6144_S256x128_1_1_0_0_n_n.contr.Idx) :
    (dot_S256x6144_S128x6144_S256x128_1_1_0_0_n_n.lhsIdx i q 0).val = (i 0).val := by
  unfold DotDims.lhsIdx
  rw [dif_neg (show ¬(0 : Fin S256x6144.rank) ∈ dot_S256x6144_S128x6144_S256x128_1_1_0_0_n_n.lhsBatch by decide), dif_pos (show (0 : Fin S256x6144.rank) ∈ dot_S256x6144_S128x6144_S256x128_1_1_0_0_n_n.lhsNonContracting by decide)]
  rfl
/-- The left operand's column is the contracted index. -/
theorem lhs_col (i : S256x128.Idx) (q : dot_S256x6144_S128x6144_S256x128_1_1_0_0_n_n.contr.Idx) :
    (dot_S256x6144_S128x6144_S256x128_1_1_0_0_n_n.lhsIdx i q 1).val = (q ⟨0, by decide⟩).val :=
  dot_S256x6144_S128x6144_S256x128_1_1_0_0_n_n.lhsIdx_val_of_single rfl i q
/-- The right operand's row is the result's column. -/
theorem rhs_row (i : S256x128.Idx) (q : dot_S256x6144_S128x6144_S256x128_1_1_0_0_n_n.contr.Idx) :
    (dot_S256x6144_S128x6144_S256x128_1_1_0_0_n_n.rhsIdx i q 0).val = (i 1).val := by
  unfold DotDims.rhsIdx
  rw [dif_neg (show ¬(0 : Fin S128x6144.rank) ∈ dot_S256x6144_S128x6144_S256x128_1_1_0_0_n_n.rhsBatch by decide), dif_pos (show (0 : Fin S128x6144.rank) ∈ dot_S256x6144_S128x6144_S256x128_1_1_0_0_n_n.rhsNonContracting by decide)]
  rfl
/-- The right operand's column is the contracted index. -/
theorem rhs_col (i : S256x128.Idx) (q : dot_S256x6144_S128x6144_S256x128_1_1_0_0_n_n.contr.Idx) :
    (dot_S256x6144_S128x6144_S256x128_1_1_0_0_n_n.rhsIdx i q 1).val = (q ⟨0, by decide⟩).val :=
  dot_S256x6144_S128x6144_S256x128_1_1_0_0_n_n.rhsIdx_val_of_single rfl i q

/-- Both operands contracted over their second axis into a zero accumulator: entry (p, q) is `∑ₖ a[p,k] · w[q,k]`. -/
theorem matmul_entry {φ₁ φ₂ : FTy} (a : FVec Ideal S256x6144 φ₁) (w : FVec Ideal S128x6144 φ₂) (p : Fin 256) (q : Fin 128) :
    matmul dot_S256x6144_S128x6144_S256x128_1_1_0_0_n_n none a w (constant S256x128 .f32 0x00000000#32) (ix2 p q)
      = ∑ k : Fin 6144, a (ix2 p k) * w (ix2 q k) := by
  show FloatOps.matmul dot_S256x6144_S128x6144_S256x128_1_1_0_0_n_n none a w (constant S256x128 .f32 0x00000000#32) (ix2 p q) = _
  rw [Ideal.matmul_constant_zero_apply, ← Equiv.sum_comp (contrEquiv1 dot_S256x6144_S128x6144_S256x128_1_1_0_0_n_n 6144 rfl rfl).symm]
  refine Finset.sum_congr rfl fun k _ => ?_
  have hk := contrEquiv1_symm_val dot_S256x6144_S128x6144_S256x128_1_1_0_0_n_n 6144 rfl rfl k
  have el : dot_S256x6144_S128x6144_S256x128_1_1_0_0_n_n.lhsIdx (ix2 p q) ((contrEquiv1 dot_S256x6144_S128x6144_S256x128_1_1_0_0_n_n 6144 rfl rfl).symm k) = ix2 p k := funext fun ax => Fin.ext (by
    match ax with
    | ⟨0, _⟩ => exact lhs_row _ _
    | ⟨1, _⟩ => exact (lhs_col _ _).trans hk)
  have er : dot_S256x6144_S128x6144_S256x128_1_1_0_0_n_n.rhsIdx (ix2 p q) ((contrEquiv1 dot_S256x6144_S128x6144_S256x128_1_1_0_0_n_n 6144 rfl rfl).symm k) = ix2 q k := funext fun ax => Fin.ext (by
    match ax with
    | ⟨0, _⟩ => exact rhs_row _ _
    | ⟨1, _⟩ => exact (rhs_col _ _).trans hk)
  rw [el, er]

/-! ## The body's stored value at an entry -/

/-- The one-row bias broadcast down the block's rows reads, at (p, q), the row's entry q. -/
theorem bias_entry (b : S1x128.Idx → EReal) (p : Fin 256) (q : Fin 128) :
    broadcastTo S256x128 b broadcasts_S1x128_S256x128 (ix2 p q) = b (ix2 (0 : Fin 1) q) := by
  refine broadcastTo_apply b broadcasts_S1x128_S256x128 (ix2 p q) (ix2 (0 : Fin 1) q) fun ax => ?_
  match ax with
  | ⟨0, _⟩ => rfl
  | ⟨1, _⟩ => rfl

/-- What the body stores, at entry (p, q) of the block, from the blocks it loaded. -/
theorem pay_entry (x0 : Vec Ideal S256x6144 .f32) (x1 x2 : Vec Ideal S128x6144 .f32) (x3 : Vec Ideal S1x128 .f32) (p : Fin 256) (q : Fin 128) :
    k2_pay1 (F := Ideal) x0 x1 x2 x3 (ix2 p q)
      = leaky ((∑ k : Fin 6144, x0 (ix2 p k) * (x1 (ix2 q k) * x2 (ix2 q k))) + x3 (ix2 (0 : Fin 1) q)) := by
  unfold k2_pay1 leaky
  simp only [shapeCast_self]
  show Scalar.select (FloatOps.cmpf .oge (_ + _) _) (_ + _) (_ * (_ + _)) = _
  rw [matmul_entry, bias_entry]
  rfl

/-! ## From blocks to the array -/

variable (V : (c : Dev nD) → (b : Ref sig .tc) → Buf (Elt Ideal) ((c : Thread nD τ).loc b))

/-- The arrays the region finds, at their literal types. -/
abbrev xArr (c : Dev nD) : S4096x6144.Idx → EReal := V c main_v3
abbrev wArr (c : Dev nD) : S6144x6144.Idx → EReal := V c main_arg5
abbrev mArr (c : Dev nD) : S6144x6144.Idx → EReal := V c main_arg13
abbrev bArr (c : Dev nD) : S1x6144.Idx → EReal := V c main_v4

/-- The layer function of those arrays. -/
def G (c : Dev nD) : S4096x6144.Idx → EReal :=
  hidden (xArr V c) (wArr V c) (mArr V c) (rowOf (bArr V c))

theorem hz : (![0, 0] : Fin 2 → Nat) = fun _ => 0 := funext fun a => by fin_cases a <;> rfl

/-- The printed index maps over the grid: activations move with the result's row block and take every in-feature;
    weight, mask and bias move with the result's column block. -/
theorem idx_facts : ∀ t : Fin cfg2.N,
    win2_0.index t (0 : Fin 2) = win2_4.index t (0 : Fin 2) ∧ win2_0.index t (1 : Fin 2) = 0
    ∧ win2_1.index t (0 : Fin 2) = win2_4.index t (1 : Fin 2) ∧ win2_1.index t (1 : Fin 2) = 0
    ∧ win2_2.index t (0 : Fin 2) = win2_4.index t (1 : Fin 2) ∧ win2_2.index t (1 : Fin 2) = 0
    ∧ win2_3.index t (0 : Fin 2) = 0 ∧ win2_3.index t (1 : Fin 2) = win2_4.index t (1 : Fin 2)
    ∧ win2_4.index t (0 : Fin 2) ≤ 15 ∧ win2_4.index t (1 : Fin 2) ≤ 47 :=
  (by decide +kernel : ∀ t : Fin grid2.N, _)

/-- The result window's block at point `t`: the row block is `t mod 16`, the column block `t div 16` (the grid runs
    over column blocks slowly and row blocks fast). -/
theorem idx_point : ∀ t : Fin cfg2.N,
    win2_4.index t (0 : Fin 2) = t.val % 16 ∧ win2_4.index t (1 : Fin 2) = t.val / 16 :=
  (by decide +kernel : ∀ t : Fin grid2.N, _)

/-- The activation block at a point, read where the result block's row says. -/
theorem x_block (c : Dev nD) (t : Fin cfg2.N) (p : Fin 256) (k : Fin 6144) (r : Fin 4096)
    (hr : r.val = win2_4.index t (0 : Fin 2) * 256 + p.val) :
    iblk2 V c 0 t (ix2 p k) = xArr V c (ix2 r k) := by
  obtain ⟨e0, e1, -⟩ := idx_facts t
  show V c main_v3 (((cfg2.win 0).blk t).view.emb (ix2 p k)) = V c main_v3 (ix2 r k)
  refine congrArg (V c main_v3) (funext fun ax => Fin.ext ?_)
  match ax with
  | ⟨0, _⟩ => show win2_0.index t (0 : Fin 2) * 256 + 1 * p.val = r.val; omega
  | ⟨1, _⟩ => show win2_0.index t (1 : Fin 2) * 6144 + 1 * k.val = k.val; omega

/-- The weight block at a point, read where the result block's column says. -/
theorem w_block (c : Dev nD) (t : Fin cfg2.N) (q : Fin 128) (k : Fin 6144) (s : Fin 6144)
    (hs : s.val = win2_4.index t (1 : Fin 2) * 128 + q.val) :
    iblk2 V c 1 t (ix2 q k) = wArr V c (ix2 s k) := by
  obtain ⟨-, -, e2, e3, -⟩ := idx_facts t
  show V c main_arg5 (((cfg2.win 1).blk t).view.emb (ix2 q k)) = V c main_arg5 (ix2 s k)
  refine congrArg (V c main_arg5) (funext fun ax => Fin.ext ?_)
  match ax with
  | ⟨0, _⟩ => show win2_1.index t (0 : Fin 2) * 128 + 1 * q.val = s.val; omega
  | ⟨1, _⟩ => show win2_1.index t (1 : Fin 2) * 6144 + 1 * k.val = k.val; omega

/-- The mask block at a point, likewise. -/
theorem m_block (c : Dev nD) (t : Fin cfg2.N) (q : Fin 128) (k : Fin 6144) (s : Fin 6144)
    (hs : s.val = win2_4.index t (1 : Fin 2) * 128 + q.val) :
    iblk2 V c 2 t (ix2 q k) = mArr V c (ix2 s k) := by
  obtain ⟨-, -, -, -, e4, e5, -⟩ := idx_facts t
  show V c main_arg13 (((cfg2.win 2).blk t).view.emb (ix2 q k)) = V c main_arg13 (ix2 s k)
  refine congrArg (V c main_arg13) (funext fun ax => Fin.ext ?_)
  match ax with
  | ⟨0, _⟩ => show win2_2.index t (0 : Fin 2) * 128 + 1 * q.val = s.val; omega
  | ⟨1, _⟩ => show win2_2.index t (1 : Fin 2) * 6144 + 1 * k.val = k.val; omega

/-- The bias block at a point: the row's entries under the result block's columns. -/
theorem b_block (c : Dev nD) (t : Fin cfg2.N) (q : Fin 128) (s : Fin 6144)
    (hs : s.val = win2_4.index t (1 : Fin 2) * 128 + q.val) :
    iblk2 V c 3 t (ix2 (0 : Fin 1) q) = bArr V c (ix2 (0 : Fin 1) s) := by
  obtain ⟨-, -, -, -, -, -, e6, e7, -⟩ := idx_facts t
  show V c main_v4 (((cfg2.win 3).blk t).view.emb (ix2 (0 : Fin 1) q)) = V c main_v4 (ix2 (0 : Fin 1) s)
  refine congrArg (V c main_v4) (funext fun ax => Fin.ext ?_)
  match ax with
  | ⟨0, _⟩ => show win2_3.index t (0 : Fin 2) * 1 + 1 * 0 = 0; omega
  | ⟨1, _⟩ => show win2_3.index t (1 : Fin 2) * 128 + 1 * q.val = s.val; omega

/-- What point `t` writes back is block `t` of the layer function. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S256x6144) hz, View.ld_unit_zero (S := S128x6144) hz, View.ld_unit_zero (S := S1x128) hz]
  funext j
  obtain ⟨p, q, rfl⟩ : ∃ (p : Fin 256) (q : Fin 128), j = ix2 p q := ⟨j 0, j 1, eq_ix2 j⟩
  obtain ⟨-, -, -, -, -, -, -, -, b0, b1⟩ := idx_facts t
  have hr : win2_4.index t (0 : Fin 2) * 256 + p.val < 4096 := by have := p.isLt; omega
  have hs : win2_4.index t (1 : Fin 2) * 128 + q.val < 6144 := by have := q.isLt; omega
  refine (pay_entry (iblk2 V c 0 t) (iblk2 V c 1 t) (iblk2 V c 2 t) (iblk2 V c 3 t) p q).trans ?_
  have hemb : ((cfg2.win 4).blk t).view.emb (ix2 p q) = ix2 (⟨_, hr⟩ : Fin 4096) (⟨_, hs⟩ : Fin 6144) := funext fun ax => Fin.ext (by
    match ax with
    | ⟨0, _⟩ => show win2_4.index t (0 : Fin 2) * 256 + 1 * p.val = win2_4.index t (0 : Fin 2) * 256 + p.val; omega
    | ⟨1, _⟩ => show win2_4.index t (1 : Fin 2) * 128 + 1 * q.val = win2_4.index t (1 : Fin 2) * 128 + q.val; omega)
  show _ = G V c (((cfg2.win 4).blk t).view.emb (ix2 p q))
  rw [hemb, b_block V c t q ⟨_, hs⟩ rfl]
  show _ = leaky ((∑ k : Fin 6144, xArr V c (ix2 ⟨_, hr⟩ k) * (wArr V c (ix2 ⟨_, hs⟩ k) * mArr V c (ix2 ⟨_, hs⟩ k))) + bArr V c (ix2 (0 : Fin 1) ⟨_, hs⟩))
  refine congrArg (fun z => leaky (z + _)) (Finset.sum_congr rfl fun k _ => ?_)
  rw [x_block V c t p k ⟨_, hr⟩ rfl, w_block V c t q k ⟨_, hs⟩ rfl, m_block V c t q k ⟨_, hs⟩ rfl]

/-- An index of the result is in point `t`'s block iff each coordinate is in the block's range on its axis. -/
theorem mem_blk (t : Fin cfg2.N) (i : S4096x6144.Idx) :
    i ∈ ((cfg2.win 4).blk t).view.set ↔ ∀ a : Fin 2, win2_4.index t a * S256x128.size a ≤ (i a).val ∧ (i a).val < win2_4.index t a * S256x128.size a + S256x128.size a := by
  show i ∈ ((View.whole main_v5).slice (win2_4.rect t)).set ↔ _
  rw [View.set_slice_whole, Rect.mem_set_unit]
  exact Iff.rfl

/-- The blocks tile the result: entry (i, j) lies in the block of row block `i / 256` and column block `j / 128`. -/
theorem cover (i : S4096x6144.Idx) : ∃ t : Fin cfg2.N, (cfg2.win 4).flush t = true ∧ i ∈ ((cfg2.win 4).blk t).view.set := by
  have hi0 : (i 0).val < 4096 := (i 0).isLt
  have hi1 : (i 1).val < 6144 := (i 1).isLt
  have hN : cfg2.N = 768 := rfl
  have ht : (i 1).val / 128 * 16 + (i 0).val / 256 < cfg2.N := by rw [hN]; omega
  have q0 : win2_4.index ⟨_, ht⟩ (0 : Fin 2) = ((i 1).val / 128 * 16 + (i 0).val / 256) % 16 := (idx_point ⟨_, ht⟩).1
  have q1 : win2_4.index ⟨_, ht⟩ (1 : Fin 2) = ((i 1).val / 128 * 16 + (i 0).val / 256) / 16 := (idx_point ⟨_, ht⟩).2
  refine ⟨⟨_, ht⟩, flush2_4 _, ?_⟩
  rw [mem_blk]
  intro a
  match a with
  | ⟨0, _⟩ => show win2_4.index ⟨_, ht⟩ (0 : Fin 2) * 256 ≤ (i 0).val ∧ (i 0).val < win2_4.index ⟨_, ht⟩ (0 : Fin 2) * 256 + 256; omega
  | ⟨1, _⟩ => show win2_4.index ⟨_, ht⟩ (1 : Fin 2) * 128 ≤ (i 1).val ∧ (i 1).val < win2_4.index ⟨_, ht⟩ (1 : Fin 2) * 128 + 128; omega

/-- After the region its result array is the layer function of the arrays it found. -/
theorem value (c : Dev nD) : (dat2 V c).arrAt 4 cfg2.N = G V c :=
  (dat2 V c).arrAt_eq_of_cover 4 (G V c) (fun t _ => flushed_eq V c t) (cover)

end Cert.KernelIdeal.Layer2

end
-- ==== Proof.Layer3.lean ====
/-
  Region 3 of the kernel's program, at the ideal instance: the fourth hidden layer.

  At every grid point the body loads a block of activations `x` (256 rows, all 6144 in-features), the matching
  128-row blocks of the weight `W` and the mask `M`, and 128 bias entries kept as a one-row matrix; it forms
  `W · M` entry by entry, contracts it with `x` over the in-feature axis on the matrix unit into a zero accumulator,
  adds the bias row to every row, applies the leaky slope and stores the 256 × 128 block.  A narrowing of the float format and a
  re-laying to the same shape are the identity on extended reals, and a sum started from the zero word is the sum.  The grid's points tile the
  4096 × 6144 result, so after the region the result array is the layer function of the arrays the region found:
  entry (i, j) is the slope of `∑ₖ x[i,k] · (W[j,k] · M[j,k]) + b[0,j]`.
-/
import proofs.«153243_j62912680952394_1_alg».proof.Proof.Gen.KernelIdeal.Frame
import proofs.«153243_j62912680952394_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer3

open Cert.KernelIdeal Cert.KernelIdeal.Gen Cert.MaskedStack
open Idealize.ShloMosaic Idealize.ShloMosaic.TcCoe Idealize.ShloMosaic.ValueIdx Idealize.SL.Sem
open Idealize.ShloMosaic.Pipeline (Dat Cfg Window)

/-! ## The matrix unit's product at an entry -/

/-- The left operand's row is the result's row. -/
theorem lhs_row (i : S256x128.Idx) (q : dot_S256x6144_S128x6144_S256x128_1_1_0_0_n_n.contr.Idx) :
    (dot_S256x6144_S128x6144_S256x128_1_1_0_0_n_n.lhsIdx i q 0).val = (i 0).val := by
  unfold DotDims.lhsIdx
  rw [dif_neg (show ¬(0 : Fin S256x6144.rank) ∈ dot_S256x6144_S128x6144_S256x128_1_1_0_0_n_n.lhsBatch by decide), dif_pos (show (0 : Fin S256x6144.rank) ∈ dot_S256x6144_S128x6144_S256x128_1_1_0_0_n_n.lhsNonContracting by decide)]
  rfl
/-- The left operand's column is the contracted index. -/
theorem lhs_col (i : S256x128.Idx) (q : dot_S256x6144_S128x6144_S256x128_1_1_0_0_n_n.contr.Idx) :
    (dot_S256x6144_S128x6144_S256x128_1_1_0_0_n_n.lhsIdx i q 1).val = (q ⟨0, by decide⟩).val :=
  dot_S256x6144_S128x6144_S256x128_1_1_0_0_n_n.lhsIdx_val_of_single rfl i q
/-- The right operand's row is the result's column. -/
theorem rhs_row (i : S256x128.Idx) (q : dot_S256x6144_S128x6144_S256x128_1_1_0_0_n_n.contr.Idx) :
    (dot_S256x6144_S128x6144_S256x128_1_1_0_0_n_n.rhsIdx i q 0).val = (i 1).val := by
  unfold DotDims.rhsIdx
  rw [dif_neg (show ¬(0 : Fin S128x6144.rank) ∈ dot_S256x6144_S128x6144_S256x128_1_1_0_0_n_n.rhsBatch by decide), dif_pos (show (0 : Fin S128x6144.rank) ∈ dot_S256x6144_S128x6144_S256x128_1_1_0_0_n_n.rhsNonContracting by decide)]
  rfl
/-- The right operand's column is the contracted index. -/
theorem rhs_col (i : S256x128.Idx) (q : dot_S256x6144_S128x6144_S256x128_1_1_0_0_n_n.contr.Idx) :
    (dot_S256x6144_S128x6144_S256x128_1_1_0_0_n_n.rhsIdx i q 1).val = (q ⟨0, by decide⟩).val :=
  dot_S256x6144_S128x6144_S256x128_1_1_0_0_n_n.rhsIdx_val_of_single rfl i q

/-- Both operands contracted over their second axis into a zero accumulator: entry (p, q) is `∑ₖ a[p,k] · w[q,k]`. -/
theorem matmul_entry {φ₁ φ₂ : FTy} (a : FVec Ideal S256x6144 φ₁) (w : FVec Ideal S128x6144 φ₂) (p : Fin 256) (q : Fin 128) :
    matmul dot_S256x6144_S128x6144_S256x128_1_1_0_0_n_n none a w (constant S256x128 .f32 0x00000000#32) (ix2 p q)
      = ∑ k : Fin 6144, a (ix2 p k) * w (ix2 q k) := by
  show FloatOps.matmul dot_S256x6144_S128x6144_S256x128_1_1_0_0_n_n none a w (constant S256x128 .f32 0x00000000#32) (ix2 p q) = _
  rw [Ideal.matmul_constant_zero_apply, ← Equiv.sum_comp (contrEquiv1 dot_S256x6144_S128x6144_S256x128_1_1_0_0_n_n 6144 rfl rfl).symm]
  refine Finset.sum_congr rfl fun k _ => ?_
  have hk := contrEquiv1_symm_val dot_S256x6144_S128x6144_S256x128_1_1_0_0_n_n 6144 rfl rfl k
  have el : dot_S256x6144_S128x6144_S256x128_1_1_0_0_n_n.lhsIdx (ix2 p q) ((contrEquiv1 dot_S256x6144_S128x6144_S256x128_1_1_0_0_n_n 6144 rfl rfl).symm k) = ix2 p k := funext fun ax => Fin.ext (by
    match ax with
    | ⟨0, _⟩ => exact lhs_row _ _
    | ⟨1, _⟩ => exact (lhs_col _ _).trans hk)
  have er : dot_S256x6144_S128x6144_S256x128_1_1_0_0_n_n.rhsIdx (ix2 p q) ((contrEquiv1 dot_S256x6144_S128x6144_S256x128_1_1_0_0_n_n 6144 rfl rfl).symm k) = ix2 q k := funext fun ax => Fin.ext (by
    match ax with
    | ⟨0, _⟩ => exact rhs_row _ _
    | ⟨1, _⟩ => exact (rhs_col _ _).trans hk)
  rw [el, er]

/-! ## The body's stored value at an entry -/

/-- The one-row bias broadcast down the block's rows reads, at (p, q), the row's entry q. -/
theorem bias_entry (b : S1x128.Idx → EReal) (p : Fin 256) (q : Fin 128) :
    broadcastTo S256x128 b broadcasts_S1x128_S256x128 (ix2 p q) = b (ix2 (0 : Fin 1) q) := by
  refine broadcastTo_apply b broadcasts_S1x128_S256x128 (ix2 p q) (ix2 (0 : Fin 1) q) fun ax => ?_
  match ax with
  | ⟨0, _⟩ => rfl
  | ⟨1, _⟩ => rfl

/-- What the body stores, at entry (p, q) of the block, from the blocks it loaded. -/
theorem pay_entry (x0 : Vec Ideal S256x6144 .f32) (x1 x2 : Vec Ideal S128x6144 .f32) (x3 : Vec Ideal S1x128 .f32) (p : Fin 256) (q : Fin 128) :
    k3_pay1 (F := Ideal) x0 x1 x2 x3 (ix2 p q)
      = leaky ((∑ k : Fin 6144, x0 (ix2 p k) * (x1 (ix2 q k) * x2 (ix2 q k))) + x3 (ix2 (0 : Fin 1) q)) := by
  unfold k3_pay1 leaky
  simp only [shapeCast_self]
  show Scalar.select (FloatOps.cmpf .oge (_ + _) _) (_ + _) (_ * (_ + _)) = _
  rw [matmul_entry, bias_entry]
  rfl

/-! ## From blocks to the array -/

variable (V : (c : Dev nD) → (b : Ref sig .tc) → Buf (Elt Ideal) ((c : Thread nD τ).loc b))

/-- The arrays the region finds, at their literal types. -/
abbrev xArr (c : Dev nD) : S4096x6144.Idx → EReal := V c main_v5
abbrev wArr (c : Dev nD) : S6144x6144.Idx → EReal := V c main_arg7
abbrev mArr (c : Dev nD) : S6144x6144.Idx → EReal := V c main_arg14
abbrev bArr (c : Dev nD) : S1x6144.Idx → EReal := V c main_v6

/-- The layer function of those arrays. -/
def G (c : Dev nD) : S4096x6144.Idx → EReal :=
  hidden (xArr V c) (wArr V c) (mArr V c) (rowOf (bArr V c))

theorem hz : (![0, 0] : Fin 2 → Nat) = fun _ => 0 := funext fun a => by fin_cases a <;> rfl

/-- The printed index maps over the grid: activations move with the result's row block and take every in-feature;
    weight, mask and bias move with the result's column block. -/
theorem idx_facts : ∀ t : Fin cfg3.N,
    win3_0.index t (0 : Fin 2) = win3_4.index t (0 : Fin 2) ∧ win3_0.index t (1 : Fin 2) = 0
    ∧ win3_1.index t (0 : Fin 2) = win3_4.index t (1 : Fin 2) ∧ win3_1.index t (1 : Fin 2) = 0
    ∧ win3_2.index t (0 : Fin 2) = win3_4.index t (1 : Fin 2) ∧ win3_2.index t (1 : Fin 2) = 0
    ∧ win3_3.index t (0 : Fin 2) = 0 ∧ win3_3.index t (1 : Fin 2) = win3_4.index t (1 : Fin 2)
    ∧ win3_4.index t (0 : Fin 2) ≤ 15 ∧ win3_4.index t (1 : Fin 2) ≤ 47 :=
  (by decide +kernel : ∀ t : Fin grid3.N, _)

/-- The result window's block at point `t`: the row block is `t mod 16`, the column block `t div 16` (the grid runs
    over column blocks slowly and row blocks fast). -/
theorem idx_point : ∀ t : Fin cfg3.N,
    win3_4.index t (0 : Fin 2) = t.val % 16 ∧ win3_4.index t (1 : Fin 2) = t.val / 16 :=
  (by decide +kernel : ∀ t : Fin grid3.N, _)

/-- The activation block at a point, read where the result block's row says. -/
theorem x_block (c : Dev nD) (t : Fin cfg3.N) (p : Fin 256) (k : Fin 6144) (r : Fin 4096)
    (hr : r.val = win3_4.index t (0 : Fin 2) * 256 + p.val) :
    iblk3 V c 0 t (ix2 p k) = xArr V c (ix2 r k) := by
  obtain ⟨e0, e1, -⟩ := idx_facts t
  show V c main_v5 (((cfg3.win 0).blk t).view.emb (ix2 p k)) = V c main_v5 (ix2 r k)
  refine congrArg (V c main_v5) (funext fun ax => Fin.ext ?_)
  match ax with
  | ⟨0, _⟩ => show win3_0.index t (0 : Fin 2) * 256 + 1 * p.val = r.val; omega
  | ⟨1, _⟩ => show win3_0.index t (1 : Fin 2) * 6144 + 1 * k.val = k.val; omega

/-- The weight block at a point, read where the result block's column says. -/
theorem w_block (c : Dev nD) (t : Fin cfg3.N) (q : Fin 128) (k : Fin 6144) (s : Fin 6144)
    (hs : s.val = win3_4.index t (1 : Fin 2) * 128 + q.val) :
    iblk3 V c 1 t (ix2 q k) = wArr V c (ix2 s k) := by
  obtain ⟨-, -, e2, e3, -⟩ := idx_facts t
  show V c main_arg7 (((cfg3.win 1).blk t).view.emb (ix2 q k)) = V c main_arg7 (ix2 s k)
  refine congrArg (V c main_arg7) (funext fun ax => Fin.ext ?_)
  match ax with
  | ⟨0, _⟩ => show win3_1.index t (0 : Fin 2) * 128 + 1 * q.val = s.val; omega
  | ⟨1, _⟩ => show win3_1.index t (1 : Fin 2) * 6144 + 1 * k.val = k.val; omega

/-- The mask block at a point, likewise. -/
theorem m_block (c : Dev nD) (t : Fin cfg3.N) (q : Fin 128) (k : Fin 6144) (s : Fin 6144)
    (hs : s.val = win3_4.index t (1 : Fin 2) * 128 + q.val) :
    iblk3 V c 2 t (ix2 q k) = mArr V c (ix2 s k) := by
  obtain ⟨-, -, -, -, e4, e5, -⟩ := idx_facts t
  show V c main_arg14 (((cfg3.win 2).blk t).view.emb (ix2 q k)) = V c main_arg14 (ix2 s k)
  refine congrArg (V c main_arg14) (funext fun ax => Fin.ext ?_)
  match ax with
  | ⟨0, _⟩ => show win3_2.index t (0 : Fin 2) * 128 + 1 * q.val = s.val; omega
  | ⟨1, _⟩ => show win3_2.index t (1 : Fin 2) * 6144 + 1 * k.val = k.val; omega

/-- The bias block at a point: the row's entries under the result block's columns. -/
theorem b_block (c : Dev nD) (t : Fin cfg3.N) (q : Fin 128) (s : Fin 6144)
    (hs : s.val = win3_4.index t (1 : Fin 2) * 128 + q.val) :
    iblk3 V c 3 t (ix2 (0 : Fin 1) q) = bArr V c (ix2 (0 : Fin 1) s) := by
  obtain ⟨-, -, -, -, -, -, e6, e7, -⟩ := idx_facts t
  show V c main_v6 (((cfg3.win 3).blk t).view.emb (ix2 (0 : Fin 1) q)) = V c main_v6 (ix2 (0 : Fin 1) s)
  refine congrArg (V c main_v6) (funext fun ax => Fin.ext ?_)
  match ax with
  | ⟨0, _⟩ => show win3_3.index t (0 : Fin 2) * 1 + 1 * 0 = 0; omega
  | ⟨1, _⟩ => show win3_3.index t (1 : Fin 2) * 128 + 1 * q.val = s.val; omega

/-- What point `t` writes back is block `t` of the layer function. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S256x6144) hz, View.ld_unit_zero (S := S128x6144) hz, View.ld_unit_zero (S := S1x128) hz]
  funext j
  obtain ⟨p, q, rfl⟩ : ∃ (p : Fin 256) (q : Fin 128), j = ix2 p q := ⟨j 0, j 1, eq_ix2 j⟩
  obtain ⟨-, -, -, -, -, -, -, -, b0, b1⟩ := idx_facts t
  have hr : win3_4.index t (0 : Fin 2) * 256 + p.val < 4096 := by have := p.isLt; omega
  have hs : win3_4.index t (1 : Fin 2) * 128 + q.val < 6144 := by have := q.isLt; omega
  refine (pay_entry (iblk3 V c 0 t) (iblk3 V c 1 t) (iblk3 V c 2 t) (iblk3 V c 3 t) p q).trans ?_
  have hemb : ((cfg3.win 4).blk t).view.emb (ix2 p q) = ix2 (⟨_, hr⟩ : Fin 4096) (⟨_, hs⟩ : Fin 6144) := funext fun ax => Fin.ext (by
    match ax with
    | ⟨0, _⟩ => show win3_4.index t (0 : Fin 2) * 256 + 1 * p.val = win3_4.index t (0 : Fin 2) * 256 + p.val; omega
    | ⟨1, _⟩ => show win3_4.index t (1 : Fin 2) * 128 + 1 * q.val = win3_4.index t (1 : Fin 2) * 128 + q.val; omega)
  show _ = G V c (((cfg3.win 4).blk t).view.emb (ix2 p q))
  rw [hemb, b_block V c t q ⟨_, hs⟩ rfl]
  show _ = leaky ((∑ k : Fin 6144, xArr V c (ix2 ⟨_, hr⟩ k) * (wArr V c (ix2 ⟨_, hs⟩ k) * mArr V c (ix2 ⟨_, hs⟩ k))) + bArr V c (ix2 (0 : Fin 1) ⟨_, hs⟩))
  refine congrArg (fun z => leaky (z + _)) (Finset.sum_congr rfl fun k _ => ?_)
  rw [x_block V c t p k ⟨_, hr⟩ rfl, w_block V c t q k ⟨_, hs⟩ rfl, m_block V c t q k ⟨_, hs⟩ rfl]

/-- An index of the result is in point `t`'s block iff each coordinate is in the block's range on its axis. -/
theorem mem_blk (t : Fin cfg3.N) (i : S4096x6144.Idx) :
    i ∈ ((cfg3.win 4).blk t).view.set ↔ ∀ a : Fin 2, win3_4.index t a * S256x128.size a ≤ (i a).val ∧ (i a).val < win3_4.index t a * S256x128.size a + S256x128.size a := by
  show i ∈ ((View.whole main_v7).slice (win3_4.rect t)).set ↔ _
  rw [View.set_slice_whole, Rect.mem_set_unit]
  exact Iff.rfl

/-- The blocks tile the result: entry (i, j) lies in the block of row block `i / 256` and column block `j / 128`. -/
theorem cover (i : S4096x6144.Idx) : ∃ t : Fin cfg3.N, (cfg3.win 4).flush t = true ∧ i ∈ ((cfg3.win 4).blk t).view.set := by
  have hi0 : (i 0).val < 4096 := (i 0).isLt
  have hi1 : (i 1).val < 6144 := (i 1).isLt
  have hN : cfg3.N = 768 := rfl
  have ht : (i 1).val / 128 * 16 + (i 0).val / 256 < cfg3.N := by rw [hN]; omega
  have q0 : win3_4.index ⟨_, ht⟩ (0 : Fin 2) = ((i 1).val / 128 * 16 + (i 0).val / 256) % 16 := (idx_point ⟨_, ht⟩).1
  have q1 : win3_4.index ⟨_, ht⟩ (1 : Fin 2) = ((i 1).val / 128 * 16 + (i 0).val / 256) / 16 := (idx_point ⟨_, ht⟩).2
  refine ⟨⟨_, ht⟩, flush3_4 _, ?_⟩
  rw [mem_blk]
  intro a
  match a with
  | ⟨0, _⟩ => show win3_4.index ⟨_, ht⟩ (0 : Fin 2) * 256 ≤ (i 0).val ∧ (i 0).val < win3_4.index ⟨_, ht⟩ (0 : Fin 2) * 256 + 256; omega
  | ⟨1, _⟩ => show win3_4.index ⟨_, ht⟩ (1 : Fin 2) * 128 ≤ (i 1).val ∧ (i 1).val < win3_4.index ⟨_, ht⟩ (1 : Fin 2) * 128 + 128; omega

/-- After the region its result array is the layer function of the arrays it found. -/
theorem value (c : Dev nD) : (dat3 V c).arrAt 4 cfg3.N = G V c :=
  (dat3 V c).arrAt_eq_of_cover 4 (G V c) (fun t _ => flushed_eq V c t) (cover)

end Cert.KernelIdeal.Layer3

end
-- ==== Proof.Layer4.lean ====
/-
  Region 4 of the kernel's program, at the ideal instance: the last layer, with no slope, its out-features extended to 2048.

  At every grid point the body loads a block of activations `x` (256 rows, all 6144 in-features), the matching
  128-row blocks of the weight `W` and the mask `M`, and 128 bias entries kept as a one-row matrix; it forms
  `W · M` entry by entry, contracts it with `x` over the in-feature axis on the matrix unit into a zero accumulator,
  adds the bias row to every row and stores the 256 × 128 block.  A narrowing of the float format and a
  re-laying to the same shape are the identity on extended reals, and a sum started from the zero word is the sum.  The grid's points tile the
  4096 × 2048 result, so after the region the result array is the layer function of the arrays the region found:
  entry (i, j) is `∑ₖ x[i,k] · (W[j,k] · M[j,k]) + b[0,j]`.
-/
import proofs.«153243_j62912680952394_1_alg».proof.Proof.Gen.KernelIdeal.Frame
import proofs.«153243_j62912680952394_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Layer4

open Cert.KernelIdeal Cert.KernelIdeal.Gen Cert.MaskedStack
open Idealize.ShloMosaic Idealize.ShloMosaic.TcCoe Idealize.ShloMosaic.ValueIdx Idealize.SL.Sem
open Idealize.ShloMosaic.Pipeline (Dat Cfg Window)

/-! ## The matrix unit's product at an entry -/

/-- The left operand's row is the result's row. -/
theorem lhs_row (i : S256x128.Idx) (q : dot_S256x6144_S128x6144_S256x128_1_1_0_0_n_n.contr.Idx) :
    (dot_S256x6144_S128x6144_S256x128_1_1_0_0_n_n.lhsIdx i q 0).val = (i 0).val := by
  unfold DotDims.lhsIdx
  rw [dif_neg (show ¬(0 : Fin S256x6144.rank) ∈ dot_S256x6144_S128x6144_S256x128_1_1_0_0_n_n.lhsBatch by decide), dif_pos (show (0 : Fin S256x6144.rank) ∈ dot_S256x6144_S128x6144_S256x128_1_1_0_0_n_n.lhsNonContracting by decide)]
  rfl
/-- The left operand's column is the contracted index. -/
theorem lhs_col (i : S256x128.Idx) (q : dot_S256x6144_S128x6144_S256x128_1_1_0_0_n_n.contr.Idx) :
    (dot_S256x6144_S128x6144_S256x128_1_1_0_0_n_n.lhsIdx i q 1).val = (q ⟨0, by decide⟩).val :=
  dot_S256x6144_S128x6144_S256x128_1_1_0_0_n_n.lhsIdx_val_of_single rfl i q
/-- The right operand's row is the result's column. -/
theorem rhs_row (i : S256x128.Idx) (q : dot_S256x6144_S128x6144_S256x128_1_1_0_0_n_n.contr.Idx) :
    (dot_S256x6144_S128x6144_S256x128_1_1_0_0_n_n.rhsIdx i q 0).val = (i 1).val := by
  unfold DotDims.rhsIdx
  rw [dif_neg (show ¬(0 : Fin S128x6144.rank) ∈ dot_S256x6144_S128x6144_S256x128_1_1_0_0_n_n.rhsBatch by decide), dif_pos (show (0 : Fin S128x6144.rank) ∈ dot_S256x6144_S128x6144_S256x128_1_1_0_0_n_n.rhsNonContracting by decide)]
  rfl
/-- The right operand's column is the contracted index. -/
theorem rhs_col (i : S256x128.Idx) (q : dot_S256x6144_S128x6144_S256x128_1_1_0_0_n_n.contr.Idx) :
    (dot_S256x6144_S128x6144_S256x128_1_1_0_0_n_n.rhsIdx i q 1).val = (q ⟨0, by decide⟩).val :=
  dot_S256x6144_S128x6144_S256x128_1_1_0_0_n_n.rhsIdx_val_of_single rfl i q

/-- Both operands contracted over their second axis into a zero accumulator: entry (p, q) is `∑ₖ a[p,k] · w[q,k]`. -/
theorem matmul_entry {φ₁ φ₂ : FTy} (a : FVec Ideal S256x6144 φ₁) (w : FVec Ideal S128x6144 φ₂) (p : Fin 256) (q : Fin 128) :
    matmul dot_S256x6144_S128x6144_S256x128_1_1_0_0_n_n none a w (constant S256x128 .f32 0x00000000#32) (ix2 p q)
      = ∑ k : Fin 6144, a (ix2 p k) * w (ix2 q k) := by
  show FloatOps.matmul dot_S256x6144_S128x6144_S256x128_1_1_0_0_n_n none a w (constant S256x128 .f32 0x00000000#32) (ix2 p q) = _
  rw [Ideal.matmul_constant_zero_apply, ← Equiv.sum_comp (contrEquiv1 dot_S256x6144_S128x6144_S256x128_1_1_0_0_n_n 6144 rfl rfl).symm]
  refine Finset.sum_congr rfl fun k _ => ?_
  have hk := contrEquiv1_symm_val dot_S256x6144_S128x6144_S256x128_1_1_0_0_n_n 6144 rfl rfl k
  have el : dot_S256x6144_S128x6144_S256x128_1_1_0_0_n_n.lhsIdx (ix2 p q) ((contrEquiv1 dot_S256x6144_S128x6144_S256x128_1_1_0_0_n_n 6144 rfl rfl).symm k) = ix2 p k := funext fun ax => Fin.ext (by
    match ax with
    | ⟨0, _⟩ => exact lhs_row _ _
    | ⟨1, _⟩ => exact (lhs_col _ _).trans hk)
  have er : dot_S256x6144_S128x6144_S256x128_1_1_0_0_n_n.rhsIdx (ix2 p q) ((contrEquiv1 dot_S256x6144_S128x6144_S256x128_1_1_0_0_n_n 6144 rfl rfl).symm k) = ix2 q k := funext fun ax => Fin.ext (by
    match ax with
    | ⟨0, _⟩ => exact rhs_row _ _
    | ⟨1, _⟩ => exact (rhs_col _ _).trans hk)
  rw [el, er]

/-! ## The body's stored value at an entry -/

/-- The one-row bias broadcast down the block's rows reads, at (p, q), the row's entry q. -/
theorem bias_entry (b : S1x128.Idx → EReal) (p : Fin 256) (q : Fin 128) :
    broadcastTo S256x128 b broadcasts_S1x128_S256x128 (ix2 p q) = b (ix2 (0 : Fin 1) q) := by
  refine broadcastTo_apply b broadcasts_S1x128_S256x128 (ix2 p q) (ix2 (0 : Fin 1) q) fun ax => ?_
  match ax with
  | ⟨0, _⟩ => rfl
  | ⟨1, _⟩ => rfl

/-- What the body stores, at entry (p, q) of the block, from the blocks it loaded. -/
theorem pay_entry (x0 : Vec Ideal S256x6144 .f32) (x1 x2 : Vec Ideal S128x6144 .f32) (x3 : Vec Ideal S1x128 .f32) (p : Fin 256) (q : Fin 128) :
    k4_pay1 (F := Ideal) x0 x1 x2 x3 (ix2 p q)
      = ((∑ k : Fin 6144, x0 (ix2 p k) * (x1 (ix2 q k) * x2 (ix2 q k))) + x3 (ix2 (0 : Fin 1) q)) := by
  unfold k4_pay1
  simp only [shapeCast_self]
  show _ + _ = _
  rw [matmul_entry, bias_entry]
  rfl

/-! ## From blocks to the array -/

variable (V : (c : Dev nD) → (b : Ref sig .tc) → Buf (Elt Ideal) ((c : Thread nD τ).loc b))

/-- The arrays the region finds, at their literal types. -/
abbrev xArr (c : Dev nD) : S4096x6144.Idx → EReal := V c main_v7
abbrev wArr (c : Dev nD) : S2048x6144.Idx → EReal := V c main_v8
abbrev mArr (c : Dev nD) : S2048x6144.Idx → EReal := V c main_v9
abbrev bArr (c : Dev nD) : S1x2048.Idx → EReal := V c main_v11

/-- The layer function of those arrays. -/
def G (c : Dev nD) : S4096x2048.Idx → EReal :=
  affine (xArr V c) (wArr V c) (mArr V c) (rowOf (bArr V c))

theorem hz : (![0, 0] : Fin 2 → Nat) = fun _ => 0 := funext fun a => by fin_cases a <;> rfl

/-- The printed index maps over the grid: activations move with the result's row block and take every in-feature;
    weight, mask and bias move with the result's column block. -/
theorem idx_facts : ∀ t : Fin cfg4.N,
    win4_0.index t (0 : Fin 2) = win4_4.index t (0 : Fin 2) ∧ win4_0.index t (1 : Fin 2) = 0
    ∧ win4_1.index t (0 : Fin 2) = win4_4.index t (1 : Fin 2) ∧ win4_1.index t (1 : Fin 2) = 0
    ∧ win4_2.index t (0 : Fin 2) = win4_4.index t (1 : Fin 2) ∧ win4_2.index t (1 : Fin 2) = 0
    ∧ win4_3.index t (0 : Fin 2) = 0 ∧ win4_3.index t (1 : Fin 2) = win4_4.index t (1 : Fin 2)
    ∧ win4_4.index t (0 : Fin 2) ≤ 15 ∧ win4_4.index t (1 : Fin 2) ≤ 15 :=
  (by decide +kernel : ∀ t : Fin grid4.N, _)

/-- The result window's block at point `t`: the row block is `t mod 16`, the column block `t div 16` (the grid runs
    over column blocks slowly and row blocks fast). -/
theorem idx_point : ∀ t : Fin cfg4.N,
    win4_4.index t (0 : Fin 2) = t.val % 16 ∧ win4_4.index t (1 : Fin 2) = t.val / 16 :=
  (by decide +kernel : ∀ t : Fin grid4.N, _)

/-- The activation block at a point, read where the result block's row says. -/
theorem x_block (c : Dev nD) (t : Fin cfg4.N) (p : Fin 256) (k : Fin 6144) (r : Fin 4096)
    (hr : r.val = win4_4.index t (0 : Fin 2) * 256 + p.val) :
    iblk4 V c 0 t (ix2 p k) = xArr V c (ix2 r k) := by
  obtain ⟨e0, e1, -⟩ := idx_facts t
  show V c main_v7 (((cfg4.win 0).blk t).view.emb (ix2 p k)) = V c main_v7 (ix2 r k)
  refine congrArg (V c main_v7) (funext fun ax => Fin.ext ?_)
  match ax with
  | ⟨0, _⟩ => show win4_0.index t (0 : Fin 2) * 256 + 1 * p.val = r.val; omega
  | ⟨1, _⟩ => show win4_0.index t (1 : Fin 2) * 6144 + 1 * k.val = k.val; omega

/-- The weight block at a point, read where the result block's column says. -/
theorem w_block (c : Dev nD) (t : Fin cfg4.N) (q : Fin 128) (k : Fin 6144) (s : Fin 2048)
    (hs : s.val = win4_4.index t (1 : Fin 2) * 128 + q.val) :
    iblk4 V c 1 t (ix2 q k) = wArr V c (ix2 s k) := by
  obtain ⟨-, -, e2, e3, -⟩ := idx_facts t
  show V c main_v8 (((cfg4.win 1).blk t).view.emb (ix2 q k)) = V c main_v8 (ix2 s k)
  refine congrArg (V c main_v8) (funext fun ax => Fin.ext ?_)
  match ax with
  | ⟨0, _⟩ => show win4_1.index t (0 : Fin 2) * 128 + 1 * q.val = s.val; omega
  | ⟨1, _⟩ => show win4_1.index t (1 : Fin 2) * 6144 + 1 * k.val = k.val; omega

/-- The mask block at a point, likewise. -/
theorem m_block (c : Dev nD) (t : Fin cfg4.N) (q : Fin 128) (k : Fin 6144) (s : Fin 2048)
    (hs : s.val = win4_4.index t (1 : Fin 2) * 128 + q.val) :
    iblk4 V c 2 t (ix2 q k) = mArr V c (ix2 s k) := by
  obtain ⟨-, -, -, -, e4, e5, -⟩ := idx_facts t
  show V c main_v9 (((cfg4.win 2).blk t).view.emb (ix2 q k)) = V c main_v9 (ix2 s k)
  refine congrArg (V c main_v9) (funext fun ax => Fin.ext ?_)
  match ax with
  | ⟨0, _⟩ => show win4_2.index t (0 : Fin 2) * 128 + 1 * q.val = s.val; omega
  | ⟨1, _⟩ => show win4_2.index t (1 : Fin 2) * 6144 + 1 * k.val = k.val; omega

/-- The bias block at a point: the row's entries under the result block's columns. -/
theorem b_block (c : Dev nD) (t : Fin cfg4.N) (q : Fin 128) (s : Fin 2048)
    (hs : s.val = win4_4.index t (1 : Fin 2) * 128 + q.val) :
    iblk4 V c 3 t (ix2 (0 : Fin 1) q) = bArr V c (ix2 (0 : Fin 1) s) := by
  obtain ⟨-, -, -, -, -, -, e6, e7, -⟩ := idx_facts t
  show V c main_v11 (((cfg4.win 3).blk t).view.emb (ix2 (0 : Fin 1) q)) = V c main_v11 (ix2 (0 : Fin 1) s)
  refine congrArg (V c main_v11) (funext fun ax => Fin.ext ?_)
  match ax with
  | ⟨0, _⟩ => show win4_3.index t (0 : Fin 2) * 1 + 1 * 0 = 0; omega
  | ⟨1, _⟩ => show win4_3.index t (1 : Fin 2) * 128 + 1 * q.val = s.val; omega

/-- What point `t` writes back is block `t` of the layer function. -/
theorem flushed_eq (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero hz]
  simp only [View.ld_unit_zero (S := S256x6144) hz, View.ld_unit_zero (S := S128x6144) hz, View.ld_unit_zero (S := S1x128) hz]
  funext j
  obtain ⟨p, q, rfl⟩ : ∃ (p : Fin 256) (q : Fin 128), j = ix2 p q := ⟨j 0, j 1, eq_ix2 j⟩
  obtain ⟨-, -, -, -, -, -, -, -, b0, b1⟩ := idx_facts t
  have hr : win4_4.index t (0 : Fin 2) * 256 + p.val < 4096 := by have := p.isLt; omega
  have hs : win4_4.index t (1 : Fin 2) * 128 + q.val < 2048 := by have := q.isLt; omega
  refine (pay_entry (iblk4 V c 0 t) (iblk4 V c 1 t) (iblk4 V c 2 t) (iblk4 V c 3 t) p q).trans ?_
  have hemb : ((cfg4.win 4).blk t).view.emb (ix2 p q) = ix2 (⟨_, hr⟩ : Fin 4096) (⟨_, hs⟩ : Fin 2048) := funext fun ax => Fin.ext (by
    match ax with
    | ⟨0, _⟩ => show win4_4.index t (0 : Fin 2) * 256 + 1 * p.val = win4_4.index t (0 : Fin 2) * 256 + p.val; omega
    | ⟨1, _⟩ => show win4_4.index t (1 : Fin 2) * 128 + 1 * q.val = win4_4.index t (1 : Fin 2) * 128 + q.val; omega)
  show _ = G V c (((cfg4.win 4).blk t).view.emb (ix2 p q))
  rw [hemb, b_block V c t q ⟨_, hs⟩ rfl]
  show _ = ((∑ k : Fin 6144, xArr V c (ix2 ⟨_, hr⟩ k) * (wArr V c (ix2 ⟨_, hs⟩ k) * mArr V c (ix2 ⟨_, hs⟩ k))) + bArr V c (ix2 (0 : Fin 1) ⟨_, hs⟩))
  refine congrArg (fun z => z + _) (Finset.sum_congr rfl fun k _ => ?_)
  rw [x_block V c t p k ⟨_, hr⟩ rfl, w_block V c t q k ⟨_, hs⟩ rfl, m_block V c t q k ⟨_, hs⟩ rfl]

/-- An index of the result is in point `t`'s block iff each coordinate is in the block's range on its axis. -/
theorem mem_blk (t : Fin cfg4.N) (i : S4096x2048.Idx) :
    i ∈ ((cfg4.win 4).blk t).view.set ↔ ∀ a : Fin 2, win4_4.index t a * S256x128.size a ≤ (i a).val ∧ (i a).val < win4_4.index t a * S256x128.size a + S256x128.size a := by
  show i ∈ ((View.whole main_v12).slice (win4_4.rect t)).set ↔ _
  rw [View.set_slice_whole, Rect.mem_set_unit]
  exact Iff.rfl

/-- The blocks tile the result: entry (i, j) lies in the block of row block `i / 256` and column block `j / 128`. -/
theorem cover (i : S4096x2048.Idx) : ∃ t : Fin cfg4.N, (cfg4.win 4).flush t = true ∧ i ∈ ((cfg4.win 4).blk t).view.set := by
  have hi0 : (i 0).val < 4096 := (i 0).isLt
  have hi1 : (i 1).val < 2048 := (i 1).isLt
  have hN : cfg4.N = 256 := rfl
  have ht : (i 1).val / 128 * 16 + (i 0).val / 256 < cfg4.N := by rw [hN]; omega
  have q0 : win4_4.index ⟨_, ht⟩ (0 : Fin 2) = ((i 1).val / 128 * 16 + (i 0).val / 256) % 16 := (idx_point ⟨_, ht⟩).1
  have q1 : win4_4.index ⟨_, ht⟩ (1 : Fin 2) = ((i 1).val / 128 * 16 + (i 0).val / 256) / 16 := (idx_point ⟨_, ht⟩).2
  refine ⟨⟨_, ht⟩, flush4_4 _, ?_⟩
  rw [mem_blk]
  intro a
  match a with
  | ⟨0, _⟩ => show win4_4.index ⟨_, ht⟩ (0 : Fin 2) * 256 ≤ (i 0).val ∧ (i 0).val < win4_4.index ⟨_, ht⟩ (0 : Fin 2) * 256 + 256; omega
  | ⟨1, _⟩ => show win4_4.index ⟨_, ht⟩ (1 : Fin 2) * 128 ≤ (i 1).val ∧ (i 1).val < win4_4.index ⟨_, ht⟩ (1 : Fin 2) * 128 + 128; omega

/-- After the region its result array is the layer function of the arrays it found. -/
theorem value (c : Dev nD) : (dat4 V c).arrAt 4 cfg4.N = G V c :=
  (dat4 V c).arrAt_eq_of_cover 4 (G V c) (fun t _ => flushed_eq V c t) (cover)

end Cert.KernelIdeal.Layer4

end
-- ==== Proof.KernelValue.lean ====
/-
  The kernel's program computes the stack.

  Region after region the result array is the layer function of what the region found (the five region modules), and
  what a region finds is the previous region's result beside launch contents of the arguments (the fold module).
  So the fourth region leaves the fourth hidden layer's value `h₄`, and the last region leaves the slope-free layer of
  `h₄` against weight, mask and bias each extended by 32 rows of a fill value.  The program returns the leading 2016
  columns.  Column `j < 2016` of a masked linear layer reads only row `j` of weight and mask and entry `j` of the
  bias, and an extended array agrees with the original there; so the returned columns are the last layer of the
  original weight, mask and bias: the stack of the sixteen arguments.
-/
import proofs.«153243_j62912680952394_1_alg».proof.Proof.Fold
import proofs.«153243_j62912680952394_1_alg».proof.Proof.Layer0
import proofs.«153243_j62912680952394_1_alg».proof.Proof.Layer1
import proofs.«153243_j62912680952394_1_alg».proof.Proof.Layer2
import proofs.«153243_j62912680952394_1_alg».proof.Proof.Layer3
import proofs.«153243_j62912680952394_1_alg».proof.Proof.Layer4
import proofs.«153243_j62912680952394_1_alg».proof.Proof.Spec
import Idealize.ShloMosaic.Lib.KernelVsHost
import Idealize.ShloMosaic.Lib.Pipeline.Value
import Idealize.ShloMosaic.Lib.ValueIdx

set_option maxRecDepth 16384

noncomputable section

open scoped BigOperators

namespace Cert.KernelIdeal.KernelValue

open Cert.KernelIdeal Cert.KernelIdeal.Gen Cert.MaskedStack
open Idealize.ShloMosaic Idealize.ShloMosaic.TcCoe Idealize.ShloMosaic.ValueIdx Idealize.SL.Sem

/-- A vector re-laid as a one-row matrix and read back along that row is the vector: entry `q` of the vector sits at
    row-major position `q` of both. -/
theorem rowOf_relaid {N : Nat} (b : (⟨1, ![N]⟩ : Shape).Idx → EReal) (h : (⟨1, ![N]⟩ : Shape).ShapeCasts ⟨2, ![1, N]⟩) :
    rowOf (shapeCast ⟨2, ![1, N]⟩ b h) = b := by
  funext q
  unfold rowOf
  refine shapeCast_apply b h (ix2 (0 : Fin 1) (q 0)) q ?_
  rw [Shape.rowMajor_val_one, Shape.rowMajor_val_two]
  show (q 0).val = 0 * N + (q 0).val
  omega

variable (m : (ℓ : Loc nD τ sig) → Buf (Elt Ideal) ℓ) (ρ : Dev nD → PrngReg)

/-- The sixteen argument arrays as launched, at their literal types. -/
abbrev a0 (c : Dev nD) : S4096x2048.Idx → EReal := m ((c : Thread nD τ).loc main_arg0)
abbrev a1 (c : Dev nD) : S6144x2048.Idx → EReal := m ((c : Thread nD τ).loc main_arg1)
abbrev a2 (c : Dev nD) : S6144.Idx → EReal := m ((c : Thread nD τ).loc main_arg2)
abbrev a3 (c : Dev nD) : S6144x6144.Idx → EReal := m ((c : Thread nD τ).loc main_arg3)
abbrev a4 (c : Dev nD) : S6144.Idx → EReal := m ((c : Thread nD τ).loc main_arg4)
abbrev a5 (c : Dev nD) : S6144x6144.Idx → EReal := m ((c : Thread nD τ).loc main_arg5)
abbrev a6 (c : Dev nD) : S6144.Idx → EReal := m ((c : Thread nD τ).loc main_arg6)
abbrev a7 (c : Dev nD) : S6144x6144.Idx → EReal := m ((c : Thread nD τ).loc main_arg7)
abbrev a8 (c : Dev nD) : S6144.Idx → EReal := m ((c : Thread nD τ).loc main_arg8)
abbrev a9 (c : Dev nD) : S2016x6144.Idx → EReal := m ((c : Thread nD τ).loc main_arg9)
abbrev a10 (c : Dev nD) : S2016.Idx → EReal := m ((c : Thread nD τ).loc main_arg10)
abbrev a11 (c : Dev nD) : S6144x2048.Idx → EReal := m ((c : Thread nD τ).loc main_arg11)
abbrev a12 (c : Dev nD) : S6144x6144.Idx → EReal := m ((c : Thread nD τ).loc main_arg12)
abbrev a13 (c : Dev nD) : S6144x6144.Idx → EReal := m ((c : Thread nD τ).loc main_arg13)
abbrev a14 (c : Dev nD) : S6144x6144.Idx → EReal := m ((c : Thread nD τ).loc main_arg14)
abbrev a15 (c : Dev nD) : S2016x6144.Idx → EReal := m ((c : Thread nD τ).loc main_arg15)

/-- The hidden layers' values. -/
def H1 (c : Dev nD) : S4096x6144.Idx → EReal := hidden (a0 m c) (a1 m c) (a11 m c) (a2 m c)
def H2 (c : Dev nD) : S4096x6144.Idx → EReal := hidden (H1 m c) (a3 m c) (a12 m c) (a4 m c)
def H3 (c : Dev nD) : S4096x6144.Idx → EReal := hidden (H2 m c) (a5 m c) (a13 m c) (a6 m c)
def H4 (c : Dev nD) : S4096x6144.Idx → EReal := hidden (H3 m c) (a7 m c) (a14 m c) (a8 m c)

/-- Region 0's layer function at the arrays it finds is the first hidden layer's value. -/
theorem g0 (c : Dev nD) : Layer0.G (V1 m ρ) c = H1 m c := by
  unfold Layer0.G H1
  rw [show Layer0.xArr (V1 m ρ) c = a0 m c from Fold.in0_x m ρ c,
    show Layer0.wArr (V1 m ρ) c = a1 m c from Fold.in0_W m ρ c,
    show Layer0.mArr (V1 m ρ) c = a11 m c from Fold.in0_M m ρ c,
    show Layer0.bArr (V1 m ρ) c = shapeCast S1x6144 (a2 m c) shapeCasts_S6144_S1x6144 from Fold.in0_b m ρ c,
    rowOf_relaid]

/-- Region 1's layer function at the arrays it finds is the second hidden layer's value. -/
theorem g1 (c : Dev nD) : Layer1.G (V3 m ρ) c = H2 m c := by
  unfold Layer1.G H2
  rw [show Layer1.xArr (V3 m ρ) c = H1 m c from (Fold.in1_x m ρ c).trans ((Layer0.value (V1 m ρ) c).trans (g0 m ρ c)),
    show Layer1.wArr (V3 m ρ) c = a3 m c from Fold.in1_W m ρ c,
    show Layer1.mArr (V3 m ρ) c = a12 m c from Fold.in1_M m ρ c,
    show Layer1.bArr (V3 m ρ) c = shapeCast S1x6144 (a4 m c) shapeCasts_S6144_S1x6144 from Fold.in1_b m ρ c,
    rowOf_relaid]

/-- Region 2's layer function at the arrays it finds is the third hidden layer's value. -/
theorem g2 (c : Dev nD) : Layer2.G (V5 m ρ) c = H3 m c := by
  unfold Layer2.G H3
  rw [show Layer2.xArr (V5 m ρ) c = H2 m c from (Fold.in2_x m ρ c).trans ((Layer1.value (V3 m ρ) c).trans (g1 m ρ c)),
    show Layer2.wArr (V5 m ρ) c = a5 m c from Fold.in2_W m ρ c,
    show Layer2.mArr (V5 m ρ) c = a13 m c from Fold.in2_M m ρ c,
    show Layer2.bArr (V5 m ρ) c = shapeCast S1x6144 (a6 m c) shapeCasts_S6144_S1x6144 from Fold.in2_b m ρ c,
    rowOf_relaid]

/-- Region 3's layer function at the arrays it finds is the fourth hidden layer's value. -/
theorem g3 (c : Dev nD) : Layer3.G (V7 m ρ) c = H4 m c := by
  unfold Layer3.G H4
  rw [show Layer3.xArr (V7 m ρ) c = H3 m c from (Fold.in3_x m ρ c).trans ((Layer2.value (V5 m ρ) c).trans (g2 m ρ c)),
    show Layer3.wArr (V7 m ρ) c = a7 m c from Fold.in3_W m ρ c,
    show Layer3.mArr (V7 m ρ) c = a14 m c from Fold.in3_M m ρ c,
    show Layer3.bArr (V7 m ρ) c = shapeCast S1x6144 (a8 m c) shapeCasts_S6144_S1x6144 from Fold.in3_b m ρ c,
    rowOf_relaid]

/-- Weight and mask extended by 32 rows, and the bias extended by 32 entries. -/
abbrev WoExt (c : Dev nD) : S2048x6144.Idx → EReal :=
  pad S2048x6144 ![0, 0] ![32, 0] ![0, 0] (a9 m c) (Fold.fill (F := Ideal)) pads_S2016x6144_S2048x6144_0320_000 h_S_
abbrev MoExt (c : Dev nD) : S2048x6144.Idx → EReal :=
  pad S2048x6144 ![0, 0] ![32, 0] ![0, 0] (a15 m c) (Fold.fill (F := Ideal)) pads_S2016x6144_S2048x6144_0320_000 h_S_
abbrev boExt (c : Dev nD) : S2048.Idx → EReal :=
  pad S2048 ![0] ![32] ![0] (a10 m c) (Fold.fill (F := Ideal)) pads_S2016_S2048_0320 h_S_

/-- The last region's layer function at the arrays it finds: the slope-free layer of `h₄` against the extended
    weight, mask and bias. -/
theorem g4 (c : Dev nD) : Layer4.G (V15 m ρ) c = affine (H4 m c) (WoExt m c) (MoExt m c) (boExt m c) := by
  unfold Layer4.G
  rw [show Layer4.xArr (V15 m ρ) c = H4 m c from (Fold.in4_x m ρ c).trans ((Layer3.value (V7 m ρ) c).trans (g3 m ρ c)),
    show Layer4.wArr (V15 m ρ) c = WoExt m c from Fold.in4_W m ρ c,
    show Layer4.mArr (V15 m ρ) c = MoExt m c from Fold.in4_M m ρ c,
    show Layer4.bArr (V15 m ρ) c = shapeCast S1x2048 (boExt m c) shapeCasts_S2048_S1x2048 from Fold.in4_b m ρ c,
    rowOf_relaid]

/-- An extended weight or mask, read at a row that was there, is the original. -/
theorem ext_row (x : S2016x6144.Idx → EReal) (q : Fin 2016) (q' : Fin 2048) (hq : q'.val = q.val) (k : Fin 6144) :
    pad S2048x6144 ![0, 0] ![32, 0] ![0, 0] x (Fold.fill (F := Ideal)) pads_S2016x6144_S2048x6144_0320_000 h_S_ (ix2 q' k) = x (ix2 q k) :=
  pad_apply_of_inside _ _ _ x _ pads_S2016x6144_S2048x6144_0320_000 h_S_ (ix2 q' k) (ix2 q k) fun ax => by
    match ax with
    | ⟨0, _⟩ => show q'.val = 0 + q.val * (0 + 1); omega
    | ⟨1, _⟩ => show k.val = 0 + k.val * (0 + 1); omega

/-- An extended bias, read at an entry that was there, is the original. -/
theorem ext_entry (x : S2016.Idx → EReal) (q : Fin 2016) (q' : Fin 2048) (hq : q'.val = q.val) :
    pad S2048 ![0] ![32] ![0] x (Fold.fill (F := Ideal)) pads_S2016_S2048_0320 h_S_ (ix1 q') = x (ix1 q) :=
  pad_apply_of_inside _ _ _ x _ pads_S2016_S2048_0320 h_S_ (ix1 q') (ix1 q) fun ax => by
    match ax with
    | ⟨0, _⟩ => show q'.val = 0 + q.val * (0 + 1); omega

/-- THE KERNEL'S RESULT: the last boundary's contents of the result array are the stack of the arguments. -/
theorem result (c : Dev nD) :
    W17 m ρ c (Proc.devRef .tc main_v13)
      = stack (a0 m c) (a1 m c) (a11 m c) (a2 m c) (a3 m c) (a12 m c) (a4 m c) (a5 m c) (a13 m c) (a6 m c)
          (a7 m c) (a14 m c) (a8 m c) (a9 m c) (a15 m c) (a10 m c) := by
  refine (Fold.out m ρ c).trans ?_
  rw [Layer4.value (V15 m ρ) c, g4]
  funext i
  obtain ⟨p, q, rfl⟩ : ∃ (p : Fin 4096) (q : Fin 2016), i = ix2 p q := ⟨i 0, i 1, eq_ix2 i⟩
  have hq : q.val < 2048 := by have := q.isLt; omega
  rw [extractStridedSlice_apply ![0, 0] _ slices_S4096x2048_S4096x2016_0_0 (ix2 p q) (ix2 p (⟨q.val, hq⟩ : Fin 2048)) (fun ax => by
    match ax with
    | ⟨0, _⟩ => show p.val = 0 + p.val; omega
    | ⟨1, _⟩ => show q.val = 0 + q.val; omega)]
  unfold stack H4 H3 H2 H1
  exact affine_of_agree _ (a9 m c) (a15 m c) (a10 m c) (WoExt m c) (MoExt m c) (boExt m c) p q ⟨q.val, hq⟩
    (fun k => ext_row (a9 m c) q ⟨q.val, hq⟩ rfl k) (fun k => ext_row (a15 m c) q ⟨q.val, hq⟩ rfl k)
    (ext_entry (a10 m c) q ⟨q.val, hq⟩ rfl)

end Cert.KernelIdeal.KernelValue

end
-- ==== Proof.RefValue.lean ====
/-
  The reference program's result, at the ideal instance, is the stack of masked linear layers.

  The reference multiplies each weight by its mask entry by entry, transposes the product, contracts the
  activations with it over the in-feature axis, adds the bias broadcast down the rows and, on the four hidden
  layers, selects between the sum and the slope word times the sum by the comparison with the zero word.  Read at an
  entry (i, j) every layer is `∑ₖ h[i,k] · (W[j,k] · M[j,k]) + b[j]` (then the slope), the layer function of the previous
  layer's value.

  Each layer is taken in two steps, and each step stops at the previous layer's value without opening it: first the
  sum before the slope is the masked linear layer of the previous value (the transposed product read at (k, j) is
  the product at (j, k); the bias broadcast twice read at (i, j) is the bias at j), then the select over the
  comparison is the leaky slope of that sum, the two float words being the very words the slope is written with.
-/
import proofs.«153243_j62912680952394_1_alg».proof.Proof.Gen.ReferenceIdeal.Read
import proofs.«153243_j62912680952394_1_alg».proof.Proof.Spec

noncomputable section

open scoped BigOperators

namespace Cert.ReferenceIdeal.RefValue

open Cert.ReferenceIdeal Cert.ReferenceIdeal.Read Cert.MaskedStack
open Idealize.ShloMosaic Idealize.ShloMosaic.ValueIdx

/-! ## The first layer (2048 in-features) -/

/-- Before the slope, the first layer's sum is the masked linear layer of the input. -/
theorem pre0 (x0 : S4096x2048.Idx → EReal) (x1 : S6144x2048.Idx → EReal) (x2 : S6144.Idx → EReal)
    (x11 : S6144x2048.Idx → EReal) :
    val_main_v5 (F := Ideal) x0 x1 x2 x11 = affine x0 x1 x11 x2 := by
  funext i
  obtain ⟨p, q, rfl⟩ : ∃ (p : Fin 4096) (q : Fin 6144), i = ix2 p q := ⟨i 0, i 1, eq_ix2 i⟩
  rw [val_main_v5_apply, val_main_v2_apply, val_main_v4_apply, val_main_v3_apply]
  simp only [val_main_v1_apply, val_main_v0_apply]
  -- the bias, broadcast to one row and then down the rows, read at (p, q), is the bias at q
  have eb : idx_main_v3 (idx_main_v4 (ix2 p q)) = ix1 q :=
    funext fun a => Fin.ext (by match a with | ⟨0, _⟩ => rfl)
  -- the k-th term reads the activations at (p, k) …
  have el : ∀ k : Fin 2048, lidx_main_v2 (ix2 p q) k = ix2 p k := fun k =>
    funext fun a => Fin.ext (by match a with | ⟨0, _⟩ => rfl | ⟨1, _⟩ => rfl)
  -- … and the transposed masked weight at (k, q), which is the masked weight at (q, k)
  have er : ∀ k : Fin 2048, idx_main_v1 (ridx_main_v2 (ix2 p q) k) = ix2 q k := fun k =>
    funext fun a => Fin.ext (by match a with | ⟨0, _⟩ => rfl | ⟨1, _⟩ => rfl)
  rw [eb]
  simp only [el, er]
  rfl

/-- The first layer's value is the hidden layer of the input. -/
theorem layer0 (x0 : S4096x2048.Idx → EReal) (x1 : S6144x2048.Idx → EReal) (x2 : S6144.Idx → EReal)
    (x11 : S6144x2048.Idx → EReal) :
    val_main_v10 (F := Ideal) x0 x1 x2 x11 = hidden x0 x1 x11 x2 := by
  funext i
  rw [val_main_v10_apply, val_main_v7_apply, val_main_v9_apply, val_main_v6_apply, val_main_v8_apply,
    val_main_cst_apply, val_main_cst_0_apply, pre0]
  rfl

/-! ## The second layer -/

/-- Before the slope, the second layer's sum is the masked linear layer of the first layer's value. -/
theorem pre1 (x0 : S4096x2048.Idx → EReal) (x1 : S6144x2048.Idx → EReal) (x2 : S6144.Idx → EReal)
    (x3 : S6144x6144.Idx → EReal) (x4 : S6144.Idx → EReal) (x11 : S6144x2048.Idx → EReal)
    (x12 : S6144x6144.Idx → EReal) :
    val_main_v16 (F := Ideal) x0 x1 x2 x3 x4 x11 x12
      = affine (val_main_v10 (F := Ideal) x0 x1 x2 x11) x3 x12 x4 := by
  funext i
  obtain ⟨p, q, rfl⟩ : ∃ (p : Fin 4096) (q : Fin 6144), i = ix2 p q := ⟨i 0, i 1, eq_ix2 i⟩
  rw [val_main_v16_apply, val_main_v13_apply, val_main_v15_apply, val_main_v14_apply]
  generalize val_main_v10 (F := Ideal) x0 x1 x2 x11 = h
  simp only [val_main_v12_apply, val_main_v11_apply]
  have eb : idx_main_v14 (idx_main_v15 (ix2 p q)) = ix1 q :=
    funext fun a => Fin.ext (by match a with | ⟨0, _⟩ => rfl)
  have el : ∀ k : Fin 6144, lidx_main_v13 (ix2 p q) k = ix2 p k := fun k =>
    funext fun a => Fin.ext (by match a with | ⟨0, _⟩ => rfl | ⟨1, _⟩ => rfl)
  have er : ∀ k : Fin 6144, idx_main_v12 (ridx_main_v13 (ix2 p q) k) = ix2 q k := fun k =>
    funext fun a => Fin.ext (by match a with | ⟨0, _⟩ => rfl | ⟨1, _⟩ => rfl)
  rw [eb]
  simp only [el, er]
  rfl

/-- The second layer's value is the hidden layer of the first layer's value. -/
theorem layer1 (x0 : S4096x2048.Idx → EReal) (x1 : S6144x2048.Idx → EReal) (x2 : S6144.Idx → EReal)
    (x3 : S6144x6144.Idx → EReal) (x4 : S6144.Idx → EReal) (x11 : S6144x2048.Idx → EReal)
    (x12 : S6144x6144.Idx → EReal) :
    val_main_v21 (F := Ideal) x0 x1 x2 x3 x4 x11 x12
      = hidden (val_main_v10 (F := Ideal) x0 x1 x2 x11) x3 x12 x4 := by
  funext i
  rw [val_main_v21_apply, val_main_v18_apply, val_main_v20_apply, val_main_v17_apply, val_main_v19_apply,
    val_main_cst_1_apply, val_main_cst_2_apply, pre1]
  rfl

/-! ## The third layer -/

/-- Before the slope, the third layer's sum is the masked linear layer of the second layer's value. -/
theorem pre2 (x0 : S4096x2048.Idx → EReal) (x1 : S6144x2048.Idx → EReal) (x2 : S6144.Idx → EReal)
    (x3 : S6144x6144.Idx → EReal) (x4 : S6144.Idx → EReal) (x5 : S6144x6144.Idx → EReal) (x6 : S6144.Idx → EReal)
    (x11 : S6144x2048.Idx → EReal) (x12 x13 : S6144x6144.Idx → EReal) :
    val_main_v27 (F := Ideal) x0 x1 x2 x3 x4 x5 x6 x11 x12 x13
      = affine (val_main_v21 (F := Ideal) x0 x1 x2 x3 x4 x11 x12) x5 x13 x6 := by
  funext i
  obtain ⟨p, q, rfl⟩ : ∃ (p : Fin 4096) (q : Fin 6144), i = ix2 p q := ⟨i 0, i 1, eq_ix2 i⟩
  rw [val_main_v27_apply, val_main_v24_apply, val_main_v26_apply, val_main_v25_apply]
  generalize val_main_v21 (F := Ideal) x0 x1 x2 x3 x4 x11 x12 = h
  simp only [val_main_v23_apply, val_main_v22_apply]
  have eb : idx_main_v25 (idx_main_v26 (ix2 p q)) = ix1 q :=
    funext fun a => Fin.ext (by match a with | ⟨0, _⟩ => rfl)
  have el : ∀ k : Fin 6144, lidx_main_v24 (ix2 p q) k = ix2 p k := fun k =>
    funext fun a => Fin.ext (by match a with | ⟨0, _⟩ => rfl | ⟨1, _⟩ => rfl)
  have er : ∀ k : Fin 6144, idx_main_v23 (ridx_main_v24 (ix2 p q) k) = ix2 q k := fun k =>
    funext fun a => Fin.ext (by match a with | ⟨0, _⟩ => rfl | ⟨1, _⟩ => rfl)
  rw [eb]
  simp only [el, er]
  rfl

/-- The third layer's value is the hidden layer of the second layer's value. -/
theorem layer2 (x0 : S4096x2048.Idx → EReal) (x1 : S6144x2048.Idx → EReal) (x2 : S6144.Idx → EReal)
    (x3 : S6144x6144.Idx → EReal) (x4 : S6144.Idx → EReal) (x5 : S6144x6144.Idx → EReal) (x6 : S6144.Idx → EReal)
    (x11 : S6144x2048.Idx → EReal) (x12 x13 : S6144x6144.Idx → EReal) :
    val_main_v32 (F := Ideal) x0 x1 x2 x3 x4 x5 x6 x11 x12 x13
      = hidden (val_main_v21 (F := Ideal) x0 x1 x2 x3 x4 x11 x12) x5 x13 x6 := by
  funext i
  rw [val_main_v32_apply, val_main_v29_apply, val_main_v31_apply, val_main_v28_apply, val_main_v30_apply,
    val_main_cst_3_apply, val_main_cst_4_apply, pre2]
  rfl

/-! ## The fourth layer -/

/-- Before the slope, the fourth layer's sum is the masked linear layer of the third layer's value. -/
theorem pre3 (x0 : S4096x2048.Idx → EReal) (x1 : S6144x2048.Idx → EReal) (x2 : S6144.Idx → EReal)
    (x3 : S6144x6144.Idx → EReal) (x4 : S6144.Idx → EReal) (x5 : S6144x6144.Idx → EReal) (x6 : S6144.Idx → EReal)
    (x7 : S6144x6144.Idx → EReal) (x8 : S6144.Idx → EReal)
    (x11 : S6144x2048.Idx → EReal) (x12 x13 x14 : S6144x6144.Idx → EReal) :
    val_main_v38 (F := Ideal) x0 x1 x2 x3 x4 x5 x6 x7 x8 x11 x12 x13 x14
      = affine (val_main_v32 (F := Ideal) x0 x1 x2 x3 x4 x5 x6 x11 x12 x13) x7 x14 x8 := by
  funext i
  obtain ⟨p, q, rfl⟩ : ∃ (p : Fin 4096) (q : Fin 6144), i = ix2 p q := ⟨i 0, i 1, eq_ix2 i⟩
  rw [val_main_v38_apply, val_main_v35_apply, val_main_v37_apply, val_main_v36_apply]
  generalize val_main_v32 (F := Ideal) x0 x1 x2 x3 x4 x5 x6 x11 x12 x13 = h
  simp only [val_main_v34_apply, val_main_v33_apply]
  have eb : idx_main_v36 (idx_main_v37 (ix2 p q)) = ix1 q :=
    funext fun a => Fin.ext (by match a with | ⟨0, _⟩ => rfl)
  have el : ∀ k : Fin 6144, lidx_main_v35 (ix2 p q) k = ix2 p k := fun k =>
    funext fun a => Fin.ext (by match a with | ⟨0, _⟩ => rfl | ⟨1, _⟩ => rfl)
  have er : ∀ k : Fin 6144, idx_main_v34 (ridx_main_v35 (ix2 p q) k) = ix2 q k := fun k =>
    funext fun a => Fin.ext (by match a with | ⟨0, _⟩ => rfl | ⟨1, _⟩ => rfl)
  rw [eb]
  simp only [el, er]
  rfl

/-- The fourth layer's value is the hidden layer of the third layer's value. -/
theorem layer3 (x0 : S4096x2048.Idx → EReal) (x1 : S6144x2048.Idx → EReal) (x2 : S6144.Idx → EReal)
    (x3 : S6144x6144.Idx → EReal) (x4 : S6144.Idx → EReal) (x5 : S6144x6144.Idx → EReal) (x6 : S6144.Idx → EReal)
    (x7 : S6144x6144.Idx → EReal) (x8 : S6144.Idx → EReal)
    (x11 : S6144x2048.Idx → EReal) (x12 x13 x14 : S6144x6144.Idx → EReal) :
    val_main_v43 (F := Ideal) x0 x1 x2 x3 x4 x5 x6 x7 x8 x11 x12 x13 x14
      = hidden (val_main_v32 (F := Ideal) x0 x1 x2 x3 x4 x5 x6 x11 x12 x13) x7 x14 x8 := by
  funext i
  rw [val_main_v43_apply, val_main_v40_apply, val_main_v42_apply, val_main_v39_apply, val_main_v41_apply,
    val_main_cst_5_apply, val_main_cst_6_apply, pre3]
  rfl

/-! ## The last layer (2016 out-features, no slope) -/

/-- The last layer's value is the masked linear layer of the fourth layer's value. -/
theorem last (x0 : S4096x2048.Idx → EReal) (x1 : S6144x2048.Idx → EReal) (x2 : S6144.Idx → EReal)
    (x3 : S6144x6144.Idx → EReal) (x4 : S6144.Idx → EReal) (x5 : S6144x6144.Idx → EReal) (x6 : S6144.Idx → EReal)
    (x7 : S6144x6144.Idx → EReal) (x8 : S6144.Idx → EReal) (x9 : S2016x6144.Idx → EReal) (x10 : S2016.Idx → EReal)
    (x11 : S6144x2048.Idx → EReal) (x12 x13 x14 : S6144x6144.Idx → EReal) (x15 : S2016x6144.Idx → EReal) :
    val_main_v49 (F := Ideal) x0 x1 x2 x3 x4 x5 x6 x7 x8 x9 x10 x11 x12 x13 x14 x15
      = affine (val_main_v43 (F := Ideal) x0 x1 x2 x3 x4 x5 x6 x7 x8 x11 x12 x13 x14) x9 x15 x10 := by
  funext i
  obtain ⟨p, q, rfl⟩ : ∃ (p : Fin 4096) (q : Fin 2016), i = ix2 p q := ⟨i 0, i 1, eq_ix2 i⟩
  rw [val_main_v49_apply, val_main_v46_apply, val_main_v48_apply, val_main_v47_apply]
  generalize val_main_v43 (F := Ideal) x0 x1 x2 x3 x4 x5 x6 x7 x8 x11 x12 x13 x14 = h
  simp only [val_main_v45_apply, val_main_v44_apply]
  have eb : idx_main_v47 (idx_main_v48 (ix2 p q)) = ix1 q :=
    funext fun a => Fin.ext (by match a with | ⟨0, _⟩ => rfl)
  have el : ∀ k : Fin 6144, lidx_main_v46 (ix2 p q) k = ix2 p k := fun k =>
    funext fun a => Fin.ext (by match a with | ⟨0, _⟩ => rfl | ⟨1, _⟩ => rfl)
  have er : ∀ k : Fin 6144, idx_main_v45 (ridx_main_v46 (ix2 p q) k) = ix2 q k := fun k =>
    funext fun a => Fin.ext (by match a with | ⟨0, _⟩ => rfl | ⟨1, _⟩ => rfl)
  rw [eb]
  simp only [el, er]
  rfl

/-! ## The whole program -/

/-- The reference's result term is the stack of its arguments. -/
theorem ref_stack (x0 : S4096x2048.Idx → EReal) (x1 : S6144x2048.Idx → EReal) (x2 : S6144.Idx → EReal) (x3 : S6144x6144.Idx → EReal) (x4 : S6144.Idx → EReal) (x5 : S6144x6144.Idx → EReal) (x6 : S6144.Idx → EReal) (x7 : S6144x6144.Idx → EReal) (x8 : S6144.Idx → EReal) (x9 : S2016x6144.Idx → EReal) (x10 : S2016.Idx → EReal) (x11 : S6144x2048.Idx → EReal) (x12 : S6144x6144.Idx → EReal) (x13 : S6144x6144.Idx → EReal) (x14 : S6144x6144.Idx → EReal) (x15 : S2016x6144.Idx → EReal) :
    val_main_v49 (F := Ideal) x0 x1 x2 x3 x4 x5 x6 x7 x8 x9 x10 x11 x12 x13 x14 x15
      = stack x0 x1 x11 x2 x3 x12 x4 x5 x13 x6 x7 x14 x8 x9 x15 x10 := by
  rw [last, layer3, layer2, layer1, layer0]
  rfl

end Cert.ReferenceIdeal.RefValue

end
-- ==== Proof.lean ====
/-
  The kernel and its reference are one function of their sixteen arguments.

  Both programs compute a stack of five masked linear layers: from activations `h`, a weight `W`, a mask `M` and a
  bias `b`, the matrix with entries `∑ₖ h[i,k] · (W[j,k] · M[j,k]) + b[j]`; the four hidden layers follow it by the leaky
  slope, the last does not.  The kernel runs each layer as a tiled region on the matrix unit (a block of rows of `h`
  against a block of rows of `W · M`, contracted over the whole in-feature axis at once, so no sum is regrouped), and
  for the last layer extends weight, mask and bias by 32 rows and returns the leading 2016 columns, which the added
  rows never reach.  The reference forms `W · M`, transposes it and contracts on the host.  At the ideal instance a
  narrowing of the float format is the identity and both contractions are the plain sum, so entry by entry the two
  results are the same extended real; no law of the extended reals beyond reading both sides is used, and the
  precondition is never opened.

  The three frames are the generated ones (the reference's is its generated run with the result dropped); the
  ideal pass rewrote nothing, so `preserves` is trivial.
-/
import proofs.«153243_j62912680952394_1_alg».proof.Defs
import proofs.«153243_j62912680952394_1_alg».proof.Proof.Gen.Kernel
import proofs.«153243_j62912680952394_1_alg».proof.Proof.Gen.Kernel.Frame
import proofs.«153243_j62912680952394_1_alg».proof.Proof.Gen.KernelIdeal
import proofs.«153243_j62912680952394_1_alg».proof.Proof.Gen.KernelIdeal.Frame
import proofs.«153243_j62912680952394_1_alg».proof.Proof.Gen.ReferenceIdeal
import proofs.«153243_j62912680952394_1_alg».proof.Proof.Gen.ReferenceIdeal.Run
import proofs.«153243_j62912680952394_1_alg».proof.Proof.Gen.ReferenceIdeal.Read
import proofs.«153243_j62912680952394_1_alg».proof.Proof.Gen.Pre_finite_inputs
import proofs.«153243_j62912680952394_1_alg».proof.Proof.KernelRun
import proofs.«153243_j62912680952394_1_alg».proof.Proof.KernelValue
import proofs.«153243_j62912680952394_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel's program ends with its result at the stack of its
    arguments and the reference with its result at the stack of its own: the same array. -/
theorem algebraic : Cert.algebraic_KernelIdeal_ReferenceIdeal := by
  intro m ρ m' ρ' _ hagree
  refine ⟨fun c => Cert.KernelIdeal.Gen.W17 m ρ c (Proc.devRef .tc Cert.KernelIdeal.main_v13), Cert.KernelIdeal.RunNamed.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v49_eq, Cert.ReferenceIdeal.RefValue.ref_stack, e0, e1, e2, e3, e4, e5, e6, e7, e8, e9, e10, e11, e12, e13, e14, e15]
  exact (Cert.KernelIdeal.KernelValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
